-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S64x32 .f32) (main_arg5 : FVec F S32 .f32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x32 .f32) (main_arg5 : FVec F S32 .f32) (main_arg6 : FVec F S64x32 .f32) (main_arg7 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S1x64 : Shape := ⟨2, ![1, 64]⟩
abbrev S10000x32 : Shape := ⟨2, ![10000, 32]⟩
abbrev S400x10000 : Shape := ⟨2, ![400, 10000]⟩
abbrev S400x32 : Shape := ⟨2, ![400, 32]⟩
abbrev S10000x64 : Shape := ⟨2, ![10000, 64]⟩
abbrev S400x64 : Shape := ⟨2, ![400, 64]⟩

abbrev nBuf : Space → Nat
  | .hbm => 14
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S10000x32, .f32⟩
  | .hbm, ⟨13, _⟩ => ⟨S10000x32, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S400x32, .f32⟩
  | .local _ .vmem, ⟨8, _⟩ => ⟨S400x32, .f32⟩
  | .local _ .vmem, ⟨9, _⟩ => ⟨S400x32, .f32⟩
  | .local _ .vmem, ⟨10, _⟩ => ⟨S400x32, .f32⟩
  | .local _ .vmem, ⟨11, _⟩ => ⟨S10000x64, .f32⟩
  | .local _ .vmem, ⟨12, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v23 : BitVec 32 := Scalar.muli arg1 c400_i32
  let v24 : Index := Scalar.indexCast v23
  let c0_14 : Index := 0#32
  ![v24.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S400x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  concatenates_S64x32_S64x32_S64x64_d1 : Shape.Concatenates [S64x32, S64x32] S64x64 1
  concatenates_S32_S32_S64_d0 : Shape.Concatenates [S32, S32] S64 0
  bcast_S64_S1x64_1 : S64.BroadcastsInDim S1x64 (![1] : Fin 1 → Fin S1x64.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  h_S400x64 : 0 < S400x64.numel
  shapeCasts_S400x64_S400x64 : S400x64.ShapeCasts S400x64
  slices_S400x64_o0_0_S400x32 : S400x64.Slices ![0, 0] S400x32
  inb_S400x32_S400x32_0_0 : ∀ a, (![0, 0] : Fin 2 → Nat) a + S400x32.size a ≤ S400x32.size a
  h_S400x32 : 0 < S400x32.numel
  slices_S400x64_o0_32_S400x32 : S400x64.Slices ![0, 32] S400x32
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x32.size a ≤ S10000x32.size a
  hwx0_6 : ∀ i : grid0.Coords, EltTy.bits .f32 = 32 ∨ (Rect.block (s := S10000x32) S400x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x32.size a ≤ S10000x32.size a
  hwx0_7 : ∀ i : grid0.Coords, EltTy.bits .f32 = 32 ∨ (Rect.block (s := S10000x32) S400x32.size (cc0_transform_7 i) (hinb0_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S400x32.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S400x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond3 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x32, .f32⟩
  | .hbm, ⟨17, _⟩ => ⟨S10000x32, .f32⟩
  | .hbm, ⟨18, _⟩ => ⟨S1x32, .f32⟩
  | .hbm, ⟨19, _⟩ => ⟨S10000x32, .f32⟩
  | .hbm, ⟨20, _⟩ => ⟨S10000x32, .f32⟩
  | .hbm, ⟨21, _⟩ => ⟨S10000x32, .f32⟩
  | .hbm, ⟨22, _⟩ => ⟨S10000x32, .f32⟩
  | .hbm, ⟨23, _⟩ => ⟨S1x32, .f32⟩
  | .hbm, ⟨24, _⟩ => ⟨S10000x32, .f32⟩
  | .hbm, ⟨25, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf

class Facts : Prop extends Facts₀ where

variable [Facts]
-- ==== Proof.BitsPoints.lean ====
/-
  The grid of the one pallas_call has 50 points, in order (p, i) with p ∈ {0, 1} the phase and i ∈ [0, 25) the row block of the
  adjacency matrix: point t is (t / 25, t % 25). The body has three branches, all decided by the coordinates:
  the first branch is taken at point 0 only (it forms x · W1 once), the second at the points of phase 0 (t < 25: it
  fills rows [400 t, 400 t + 400) of the second scratch), the third at the points of phase 1 (25 ≤ t: it writes the two
  output blocks). This module decides those facts over the grid, gives the row offset of the second branch's slice in
  closed form, says at which points the two output windows are written back (exactly the points of phase 1, block
  t - 25) and where they are idle (phase 0), and names the staging memrefs and the two scratch buffers a point runs on.
-/
import proofs.«105579_g49082886258796_cont_8to1c4_279_12_alg».proof.Proof.Gen.Kernel.Frame
import proofs.«105579_g49082886258796_cont_8to1c4_279_12_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three branch conditions over the grid -/

/-- The condition of the first branch: both coordinates are zero. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem atStart_iff : ∀ t : Fin cfg0.N, atStart (grid0.coords t) ↔ t.val = 0 :=
  (by decide +kernel : ∀ t : Fin grid0.N, atStart (grid0.coords t) ↔ t.val = 0)

/-- The condition of the second branch: phase 0. -/
abbrev inFill (i : grid0.Coords) : Prop := k0_cond2 i = 1#1
theorem inFill_iff : ∀ t : Fin cfg0.N, inFill (grid0.coords t) ↔ t.val < 25 :=
  (by decide +kernel : ∀ t : Fin grid0.N, inFill (grid0.coords t) ↔ t.val < 25)

/-- The condition of the third branch: phase 1. -/
abbrev inEmit (i : grid0.Coords) : Prop := k0_cond3 i = 1#1
theorem inEmit_iff : ∀ t : Fin cfg0.N, inEmit (grid0.coords t) ↔ 25 ≤ t.val :=
  (by decide +kernel : ∀ t : Fin grid0.N, inEmit (grid0.coords t) ↔ 25 ≤ t.val)

theorem N_eq : cfg0.N = 50 := N_0

/-- In phase 0 the slice the second branch stores starts at row 400 t, column 0. -/
theorem fillOff : ∀ t : Fin cfg0.N, t.val < 25 → k0_off1 (grid0.coords t) = ![400 * t.val, 0] :=
  (by decide +kernel : ∀ t : Fin grid0.N, t.val < 25 → k0_off1 (grid0.coords t) = ![400 * t.val, 0])

/-! ## The output windows' schedule -/

/-- Output window 6 is written back exactly at the points of phase 1 … -/
theorem flush6_iff : ∀ t : Fin cfg0.N, (cfg0.win 6).flush t = true ↔ 25 ≤ t.val :=
  (by decide +kernel : ∀ t : Fin grid0.N, win0_6.flush t = true ↔ 25 ≤ t.val)
theorem flush7_iff : ∀ t : Fin cfg0.N, (cfg0.win 7).flush t = true ↔ 25 ≤ t.val :=
  (by decide +kernel : ∀ t : Fin grid0.N, win0_7.flush t = true ↔ 25 ≤ t.val)
/-- … and there its block is block t - 25 of the 25 row blocks. -/
theorem index6 : ∀ t : Fin cfg0.N, 25 ≤ t.val → win0_6.index t = ![t.val - 25, 0] :=
  (by decide +kernel : ∀ t : Fin grid0.N, 25 ≤ t.val → win0_6.index t = ![t.val - 25, 0])
theorem index7 : ∀ t : Fin cfg0.N, 25 ≤ t.val → win0_7.index t = ![t.val - 25, 0] :=
  (by decide +kernel : ∀ t : Fin grid0.N, 25 ≤ t.val → win0_7.index t = ![t.val - 25, 0])
/-- The adjacency window's block at point t is row block t % 25. -/
theorem index1 : ∀ t : Fin cfg0.N, win0_1.index t = ![t.val % 25, 0] :=
  (by decide +kernel : ∀ t : Fin grid0.N, win0_1.index t = ![t.val % 25, 0])

/-- The inputs are never idle; the outputs are idle in phase 0 and live in phase 1. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6_fill : ∀ t : Fin cfg0.N, t.val < 25 → cfg0.idle 6 (grid0.coords t) = true :=
  (by decide +kernel : ∀ t : Fin grid0.N, t.val < 25 → cfg0.idle 6 (grid0.coords t) = true)
theorem idle7_fill : ∀ t : Fin cfg0.N, t.val < 25 → cfg0.idle 7 (grid0.coords t) = true :=
  (by decide +kernel : ∀ t : Fin grid0.N, t.val < 25 → cfg0.idle 7 (grid0.coords t) = true)
theorem live6_emit : ∀ t : Fin cfg0.N, 25 ≤ t.val → cfg0.idle 6 (grid0.coords t) = false :=
  (by decide +kernel : ∀ t : Fin grid0.N, 25 ≤ t.val → cfg0.idle 6 (grid0.coords t) = false)
theorem live7_emit : ∀ t : Fin cfg0.N, 25 ≤ t.val → cfg0.idle 7 (grid0.coords t) = false :=
  (by decide +kernel : ∀ t : Fin grid0.N, 25 ≤ t.val → cfg0.idle 7 (grid0.coords t) = false)

/-! ## The memrefs a point runs on -/

abbrev stg0 (t : Fin cfg0.N) : Memref sig .tc .vmem S10000x128 .f32 := win0_0.stage (cfg0.slots t 0)
abbrev wh0 (t : Fin cfg0.N) : (stg0 t).IsWhole := hstage0_0 ((cfg0.slots t 0).cast nbuf0_0)
abbrev stg1 (t : Fin cfg0.N) : Memref sig .tc .vmem S400x10000 .f32 := win0_1.stage (cfg0.slots t 1)
abbrev wh1 (t : Fin cfg0.N) : (stg1 t).IsWhole := hstage0_1 ((cfg0.slots t 1).cast nbuf0_1)
abbrev stg2 (t : Fin cfg0.N) : Memref sig .tc .vmem S128x64 .f32 := win0_2.stage (cfg0.slots t 2)
abbrev wh2 (t : Fin cfg0.N) : (stg2 t).IsWhole := hstage0_2 ((cfg0.slots t 2).cast nbuf0_2)
abbrev stg3 (t : Fin cfg0.N) : Memref sig .tc .vmem S1x64 .f32 := win0_3.stage (cfg0.slots t 3)
abbrev wh3 (t : Fin cfg0.N) : (stg3 t).IsWhole := hstage0_3 ((cfg0.slots t 3).cast nbuf0_3)
abbrev stg4 (t : Fin cfg0.N) : Memref sig .tc .vmem S64x64 .f32 := win0_4.stage (cfg0.slots t 4)
abbrev wh4 (t : Fin cfg0.N) : (stg4 t).IsWhole := hstage0_4 ((cfg0.slots t 4).cast nbuf0_4)
abbrev stg5 (t : Fin cfg0.N) : Memref sig .tc .vmem S1x64 .f32 := win0_5.stage (cfg0.slots t 5)
abbrev wh5 (t : Fin cfg0.N) : (stg5 t).IsWhole := hstage0_5 ((cfg0.slots t 5).cast nbuf0_5)
abbrev stg6 (t : Fin cfg0.N) : Memref sig .tc .vmem S400x32 .f32 := win0_6.stage (cfg0.slots t 6)
abbrev wh6 (t : Fin cfg0.N) : (stg6 t).IsWhole := hstage0_6 ((cfg0.slots t 6).cast nbuf0_6)
abbrev stg7 (t : Fin cfg0.N) : Memref sig .tc .vmem S400x32 .f32 := win0_7.stage (cfg0.slots t 7)
abbrev wh7 (t : Fin cfg0.N) : (stg7 t).IsWhole := hstage0_7 ((cfg0.slots t 7).cast nbuf0_7)
/-- The two scratch buffers: the first holds x · W1, the second the rows of relu(adj · (x · W1) + b1) · [Wmu | Wlv]. -/
abbrev scrXW : Memref sig .tc .vmem S10000x64 .f32 := Memref.whole cc0_scratch0
abbrev scrHM : Memref sig .tc .vmem S10000x64 .f32 := Memref.whole cc0_scratch1

/-- What the launch hands the region beside the windows: the two scratch buffers at some contents and the generator register. -/
theorem regionRest_eq (c : Dev nD) :
    (Pipeline.ΦA spec0 c : sProp 𝕄)
      = iprop(iprop((∃ d, owns (c : Thread nD τ) scrXW fullShare d) ∗ (∃ d, owns (c : Thread nD τ) scrHM fullShare d)) ∗ (∃ r, prngReg c r)) := by
  unfold Pipeline.ΦA; rw [scopedRest0_eq]; simp only [scrXW, scrHM, owns_whole]; try rfl

end Cert.Kernel.Hand

end
-- ==== Proof.BitsRunFirst.lean ====
/-
  The body at the first grid point (t = 0): the first and the second branch run. The first forms x · W1 from the whole
  feature block and the first weight block and stores it over the whole first scratch; the second then reads that
  scratch back, and stores relu(adj_block · (x · W1) + b1) · [Wmu | Wlv] into rows [0, 400) of the second scratch.
  The first scratch is handed in at anything (nothing has written it yet) and handed back with the stored pieces over
  it; the second scratch is handed in at named contents and handed back with one slice written over them.
-/
import proofs.«105579_g49082886258796_cont_8to1c4_279_12_alg».proof.Proof.BitsPoints

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the first point stores into the first scratch (first list) and into the second scratch (second list), with the
    body's run: inputs and output buffers handed back as found. -/
noncomputable def runFirst (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : atStart i) (hc1 : inFill i) (hc2 : ¬inEmit i)
    (x0 : Vec F S10000x128 .f32) (x1 : Vec F S400x10000 .f32) (x2 : Vec F S128x64 .f32) (x3 : Vec F S1x64 .f32) (x4 : Vec F S64x64 .f32) (x5 : Vec F S1x64 .f32) (xo6 xo7 : Vec F S400x32 .f32) (hm : Vec F S10000x64 .f32) :
    (LX : List (View.Piece (Elt F) S10000x64 .f32)) ×' (LH : List (View.Piece (Elt F) S10000x64 .f32)) ×'
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ (∃ d, owns (c : Thread nD τ) arg10 fullShare d) ∗ owns (c : Thread nD τ) arg11 fullShare hm
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ (∃ f, arg10.view.loc (c : Thread nD τ) ↦[arg10.view.set]{fullShare} arg10.view.writes (Elt F) f LX) ∗ (arg11.view.loc (c : Thread nD τ) ↦[arg11.view.set]{fullShare} arg11.view.writes (Elt F) (harg11.unread hm) LH)) -∗ K ⟨⟩))
          ⊢ wp frame (wpE (defs₀ (F := F)) Variants.none c none) E (cc0_fused_kernel i arg2 harg2 arg3 harg3 arg4 harg4 arg5 harg5 arg6 harg6 arg7 harg7 arg8 harg8 arg9 harg9 arg10 harg10 arg11 harg11) K := by
  refine ⟨?_, ?_, fun E K => ?run⟩
  case run =>
    simp only [cc0_fused_kernel_eq_skeleton]; unfold cc0_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexact HS1

end Cert.Kernel.Hand

end
-- ==== Proof.BitsRunFill.lean ====
/-
  The body at a point of phase 0 other than the first (1 ≤ t < 25): only the second branch runs. It reads the adjacency
  row block, the first scratch (x · W1, stored at point 0), the bias row and the concatenated weights, and stores
  relu(adj_block · (x · W1) + b1) · [Wmu | Wlv] into rows [400 t, 400 t + 400) of the second scratch; everything else it
  was handed it hands back as it was. The triple is stated with the second scratch handed in at named contents and handed
  back with one slice written over them; which slice and with what is found when the body is run.
-/
import proofs.«105579_g49082886258796_cont_8to1c4_279_12_alg».proof.Proof.BitsPoints

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The slice a later point of phase 0 writes into the second scratch (the list's one piece), with the body's run:
    inputs, output buffers and first scratch handed back as found, the second scratch with the slice written. -/
noncomputable def runFill (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : ¬atStart i) (hc1 : inFill i) (hc2 : ¬inEmit i)
    (x0 : Vec F S10000x128 .f32) (x1 : Vec F S400x10000 .f32) (x2 : Vec F S128x64 .f32) (x3 : Vec F S1x64 .f32) (x4 : Vec F S64x64 .f32) (x5 : Vec F S1x64 .f32) (xo6 xo7 : Vec F S400x32 .f32) (xw hm : Vec F S10000x64 .f32) :
    { LH : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ owns (c : Thread nD τ) arg10 fullShare xw ∗ owns (c : Thread nD τ) arg11 fullShare hm
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ owns (c : Thread nD τ) arg10 fullShare xw ∗ (arg11.view.loc (c : Thread nD τ) ↦[arg11.view.set]{fullShare} arg11.view.writes (Elt F) (harg11.unread hm) LH)) -∗ K ⟨⟩))
          ⊢ wp frame (wpE (defs₀ (F := F)) Variants.none c none) E (cc0_fused_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0_fused_kernel_eq_skeleton]; unfold cc0_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    iexact HS1

end Cert.Kernel.Hand

end
-- ==== Proof.BitsRunEmit.lean ====
/-
  The body at a point of phase 1 (25 ≤ t): only the third branch runs. It reads the adjacency row block, the whole
  second scratch and the concatenated bias row, forms adj_block · scratch + [bmu | blv], and stores its columns [0, 32)
  over the whole first output block and its columns [32, 64) over the whole second output block. Both scratch buffers
  are handed back as found; the output buffers are handed in at anything and handed back with the stored pieces.
-/
import proofs.«105579_g49082886258796_cont_8to1c4_279_12_alg».proof.Proof.BitsPoints

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What a point of phase 1 stores into the first output's buffer (first list) and the second's (second list), with the
    body's run: inputs and both scratch buffers handed back as found. -/
noncomputable def runEmit (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : ¬atStart i) (hc1 : ¬inFill i) (hc2 : inEmit i)
    (x0 : Vec F S10000x128 .f32) (x1 : Vec F S400x10000 .f32) (x2 : Vec F S128x64 .f32) (x3 : Vec F S1x64 .f32) (x4 : Vec F S64x64 .f32) (x5 : Vec F S1x64 .f32) (xw hm : Vec F S10000x64 .f32) :
    (L6 : List (View.Piece (Elt F) S400x32 .f32)) ×' (L7 : List (View.Piece (Elt F) S400x32 .f32)) ×'
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xw ∗ owns (c : Thread nD τ) arg11 fullShare hm
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xw ∗ owns (c : Thread nD τ) arg11 fullShare hm) -∗ K ⟨⟩))
          ⊢ wp frame (wpE (defs₀ (F := F)) Variants.none c none) E (cc0_fused_kernel i arg2 harg2 arg3 harg3 arg4 harg4 arg5 harg5 arg6 harg6 arg7 harg7 arg8 harg8 arg9 harg9 arg10 harg10 arg11 harg11) K := by
  refine ⟨?_, ?_, fun E K => ?run⟩
  case run =>
    simp only [cc0_fused_kernel_eq_skeleton]; unfold cc0_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _; isplitr; · ipureintro; exact harg10.read_unread _
      iexact HS0
    iexists _; isplitr; · ipureintro; exact harg11.read_unread _
    iexact HS1

end Cert.Kernel.Hand

end
-- ==== Proof.BitsFound.lean ====
/-
  What the three runs of the body found, read back as plain payload terms over the blocks the buffers were handed at:
  a load of a whole buffer held at named contents is those contents, and a load of the first scratch right after the
  first branch stored over all of it is what was stored.
-/
import proofs.«105579_g49082886258796_cont_8to1c4_279_12_alg».proof.Proof.BitsRunFirst
import proofs.«105579_g49082886258796_cont_8to1c4_279_12_alg».proof.Proof.BitsRunFill
import proofs.«105579_g49082886258796_cont_8to1c4_279_12_alg».proof.Proof.BitsRunEmit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

theorem zeroOff : (![0, 0] : Fin 2 → Nat) = fun _ => 0 := funext fun a => by fin_cases a <;> rfl

/-- A later point of phase 0 writes one slice: rows from the point's offset, all 64 columns, holding
    relu(adj_block · xw + b1) · Wcat as the payload `k0_pay2` spells it. -/
theorem runFill_found (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : ¬atStart i) (hc1 : inFill i) (hc2 : ¬inEmit i)
    (x0 : Vec F S10000x128 .f32) (x1 : Vec F S400x10000 .f32) (x2 : Vec F S128x64 .f32) (x3 : Vec F S1x64 .f32) (x4 : Vec F S64x64 .f32) (x5 : Vec F S1x64 .f32) (xo6 xo7 : Vec F S400x32 .f32) (xw hm : Vec F S10000x64 .f32) :
    (runFill c i arg2 harg2 arg3 harg3 arg4 harg4 arg5 harg5 arg6 harg6 arg7 harg7 arg8 harg8 arg9 harg9 arg10 harg10 arg11 harg11 hc0 hc1 hc2 x0 x1 x2 x3 x4 x5 xo6 xo7 xw hm).1
      = [⟨Rect.unit (s := S10000x64) (k0_off1 i) S400x64.size (k0_off1_inb i hc1), k0_pay2 x1 xw x3 x4⟩] := by
  unfold runFill
  dsimp only
  try sl_unfold_run_names
  simp only [View.readAt_eq_ld, Memref.IsWhole.read_unread, View.ld_unit_zero (S := S400x10000) zeroOff, View.ld_unit_zero (S := S10000x64) zeroOff, View.ld_unit_zero (S := S1x64) zeroOff, View.ld_unit_zero (S := S64x64) zeroOff]

/-- The first point stores x · W1 (the payload `k0_pay1`) over the whole first scratch … -/
theorem runFirst_found_xw (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : atStart i) (hc1 : inFill i) (hc2 : ¬inEmit i)
    (x0 : Vec F S10000x128 .f32) (x1 : Vec F S400x10000 .f32) (x2 : Vec F S128x64 .f32) (x3 : Vec F S1x64 .f32) (x4 : Vec F S64x64 .f32) (x5 : Vec F S1x64 .f32) (xo6 xo7 : Vec F S400x32 .f32) (hm : Vec F S10000x64 .f32) :
    (runFirst c i arg2 harg2 arg3 harg3 arg4 harg4 arg5 harg5 arg6 harg6 arg7 harg7 arg8 harg8 arg9 harg9 arg10 harg10 arg11 harg11 hc0 hc1 hc2 x0 x1 x2 x3 x4 x5 xo6 xo7 hm).1
      = [⟨Rect.unit (s := S10000x64) ![0, 0] S10000x64.size inb_S10000x64_S10000x64_0_0, k0_pay1 x0 x2⟩] := by
  unfold runFirst
  dsimp only
  try sl_unfold_run_names
  simp only [View.readAt_eq_ld, Memref.IsWhole.read_unread, View.ld_unit_zero (S := S10000x128) zeroOff, View.ld_unit_zero (S := S128x64) zeroOff]

/-- … and one slice of the second scratch, computed from the x · W1 it has just stored. -/
theorem runFirst_found_hm (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : atStart i) (hc1 : inFill i) (hc2 : ¬inEmit i)
    (x0 : Vec F S10000x128 .f32) (x1 : Vec F S400x10000 .f32) (x2 : Vec F S128x64 .f32) (x3 : Vec F S1x64 .f32) (x4 : Vec F S64x64 .f32) (x5 : Vec F S1x64 .f32) (xo6 xo7 : Vec F S400x32 .f32) (hm : Vec F S10000x64 .f32) :
    (runFirst c i arg2 harg2 arg3 harg3 arg4 harg4 arg5 harg5 arg6 harg6 arg7 harg7 arg8 harg8 arg9 harg9 arg10 harg10 arg11 harg11 hc0 hc1 hc2 x0 x1 x2 x3 x4 x5 xo6 xo7 hm).2.1
      = [⟨Rect.unit (s := S10000x64) (k0_off1 i) S400x64.size (k0_off1_inb i hc1), k0_pay2 x1 (k0_pay1 x0 x2) x3 x4⟩] := by
  unfold runFirst
  dsimp only
  try sl_unfold_run_names
  simp only [View.readAt_eq_ld, Memref.IsWhole.read_unread, View.readCov_unit_zero (S := S10000x64) _ zeroOff, View.ld_unit_zero (S := S10000x128) zeroOff, View.ld_unit_zero (S := S128x64) zeroOff, View.ld_unit_zero (S := S400x10000) zeroOff, View.ld_unit_zero (S := S1x64) zeroOff, View.ld_unit_zero (S := S64x64) zeroOff]

/-- A point of phase 1 stores columns [0, 32) of adj_block · hm + bcat (the payload `k0_pay4`) over the whole first output block … -/
theorem runEmit_found_6 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : ¬atStart i) (hc1 : ¬inFill i) (hc2 : inEmit i)
    (x0 : Vec F S10000x128 .f32) (x1 : Vec F S400x10000 .f32) (x2 : Vec F S128x64 .f32) (x3 : Vec F S1x64 .f32) (x4 : Vec F S64x64 .f32) (x5 : Vec F S1x64 .f32) (xw hm : Vec F S10000x64 .f32) :
    (runEmit c i arg2 harg2 arg3 harg3 arg4 harg4 arg5 harg5 arg6 harg6 arg7 harg7 arg8 harg8 arg9 harg9 arg10 harg10 arg11 harg11 hc0 hc1 hc2 x0 x1 x2 x3 x4 x5 xw hm).1
      = [⟨Rect.unit (s := S400x32) ![0, 0] S400x32.size inb_S400x32_S400x32_0_0, k0_pay4 x1 hm x5⟩] := by
  unfold runEmit
  dsimp only
  try sl_unfold_run_names
  simp only [View.readAt_eq_ld, Memref.IsWhole.read_unread, View.ld_unit_zero (S := S400x10000) zeroOff, View.ld_unit_zero (S := S10000x64) zeroOff, View.ld_unit_zero (S := S1x64) zeroOff]

/-- … and columns [32, 64) (the payload `k0_pay5`) over the whole second output block. -/
theorem runEmit_found_7 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : ¬atStart i) (hc1 : ¬inFill i) (hc2 : inEmit i)
    (x0 : Vec F S10000x128 .f32) (x1 : Vec F S400x10000 .f32) (x2 : Vec F S128x64 .f32) (x3 : Vec F S1x64 .f32) (x4 : Vec F S64x64 .f32) (x5 : Vec F S1x64 .f32) (xw hm : Vec F S10000x64 .f32) :
    (runEmit c i arg2 harg2 arg3 harg3 arg4 harg4 arg5 harg5 arg6 harg6 arg7 harg7 arg8 harg8 arg9 harg9 arg10 harg10 arg11 harg11 hc0 hc1 hc2 x0 x1 x2 x3 x4 x5 xw hm).2.1
      = [⟨Rect.unit (s := S400x32) ![0, 0] S400x32.size inb_S400x32_S400x32_0_0, k0_pay5 x1 hm x5⟩] := by
  unfold runEmit
  dsimp only
  try sl_unfold_run_names
  simp only [View.readAt_eq_ld, Memref.IsWhole.read_unread, View.ld_unit_zero (S := S400x10000) zeroOff, View.ld_unit_zero (S := S10000x64) zeroOff, View.ld_unit_zero (S := S1x64) zeroOff]

end Cert.Kernel.Hand

end
-- ==== Proof.BitsData.lean ====
/-
  The proof data of the one pipeline, at any float instance.
  What the run keeps between grid points: the first scratch holds x · W1 from point 0 on (as the payload `k0_pay1` of the
  feature block and the first weight block); after point n of phase 0 rows [0, 400 (n + 1)) of the second scratch hold, block
  by block, relu(adj_block · (x · W1) + b1) · [Wmu | Wlv] (the payload `k0_pay2` of that block's adjacency rows), and after
  point 24 that is all of it: one array `hmArr`, row r being row r % 400 of block r / 400. The rows not yet written
  hold anything, so the invariant names the written rows only. A point of phase 1 leaves in the two output buffers
  columns [0, 32) and [32, 64) of adj_block · hmArr + [bmu | blv] (the payloads `k0_pay4`, `k0_pay5`). In phase 0 the
  output windows are idle and their buffers pass through untouched.
-/
import proofs.«105579_g49082886258796_cont_8to1c4_279_12_alg».proof.Proof.BitsFound
import Idealize.ShloMosaic.Lib.ValueIdx
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos : 0 < cfg0.N := by rw [N_eq]; decide
/-- The first grid point. -/
abbrev pt0 : Fin cfg0.N := ⟨0, N_pos⟩

/-! ## What the scratch buffers and the output buffers hold -/

/-- x · W1 as the first point forms it from the feature block and the first weight block. -/
def xwOf (c : Dev nD) : Vec F S10000x64 .f32 := k0_pay1 (iblk m c 0 pt0) (iblk m c 2 pt0)

/-- The 400 rows point t of phase 0 stores into the second scratch. -/
def hmBlk (c : Dev nD) (t : Fin cfg0.N) : Vec F S400x64 .f32 := k0_pay2 (iblk m c 1 t) (xwOf m c) (iblk m c 3 t) (iblk m c 4 t)

/-- The second scratch once phase 0 is over: row r is row r % 400 of the block point r / 400 stored. -/
def hmArr (c : Dev nD) : Vec F S10000x64 .f32 := fun j =>
  hmBlk m c ⟨(j 0).val / 400, by have := idx2_lt0 j; rw [N_eq]; omega⟩
    (ix2 (⟨(j 0).val % 400, Nat.mod_lt _ (by decide)⟩ : Fin 400) (⟨(j 1).val, idx2_lt1 j⟩ : Fin 64))

/-- After point n the blocks of points 0 … min n 24 are in place in contents `d` of the second scratch. -/
def HMInv (c : Dev nD) (n : ℕ) (d : Vec F S10000x64 .f32) : Prop :=
  ∀ (t : Fin cfg0.N), t.val ≤ n → t.val < 25 → ∀ (y : S400x64.Idx) (j : S10000x64.Idx),
    (j 0).val = 400 * t.val + (y 0).val → (j 1).val = (y 1).val → d j = hmBlk m c t y

/-- Once all 25 blocks are in place the contents are `hmArr`. -/
theorem HMInv_full (c : Dev nD) (n : ℕ) (hn : 24 ≤ n) (d : Vec F S10000x64 .f32) (h : HMInv m c n d) : d = hmArr m c := by
  funext j
  have h0 := idx2_lt0 j
  exact h ⟨(j 0).val / 400, by rw [N_eq]; omega⟩ (by show (j 0).val / 400 ≤ n; omega) (by show (j 0).val / 400 < 25; omega) _ j
    (by show (j 0).val = 400 * ((j 0).val / 400) + (j 0).val % 400; omega) rfl

theorem HMInv_mono (c : Dev nD) (n n' : ℕ) (hn : 24 ≤ n) (d : Vec F S10000x64 .f32) (h : HMInv m c n d) : HMInv m c n' d :=
  fun t _ h25 y j h0 h1 => h t (by omega) h25 y j h0 h1

/-- What a point of phase 1 leaves in the two output buffers. -/
def outMu (c : Dev nD) (t : Fin cfg0.N) : Vec F S400x32 .f32 := k0_pay4 (iblk m c 1 t) (hmArr m c) (iblk m c 5 t)
def outLv (c : Dev nD) (t : Fin cfg0.N) : Vec F S400x32 .f32 := k0_pay5 (iblk m c 1 t) (hmArr m c) (iblk m c 5 t)

/-! ## The invariant between points -/

/-- Before point 0: what the launch hands over (both scratch buffers at anything). Before point n + 1: the first scratch at
    x · W1, the second at contents whose written blocks are in place, the generator register at some state. -/
def regionInv (c : Dev nD) : (n : ℕ) → n ≤ cfg0.N → sProp 𝕄
  | 0, _ => Pipeline.ΦA spec0 c
  | n + 1, _ => iprop(iprop(owns (c : Thread nD τ) scrXW fullShare (xwOf m c) ∗ (∃ d, ⌜HMInv m c n d⌝ ∗ owns (c : Thread nD τ) scrHM fullShare d)) ∗ (∃ r, prngReg c r))

theorem regionInv_zero (c : Dev nD) (n : ℕ) (h : n ≤ cfg0.N) (hz : n = 0) : regionInv m c n h = Pipeline.ΦA spec0 c := by
  subst hz; rfl

theorem regionInv_succ (c : Dev nD) (n : ℕ) (hn : n + 1 ≤ cfg0.N) :
    regionInv m c (n + 1) hn = iprop(iprop(owns (c : Thread nD τ) scrXW fullShare (xwOf m c) ∗ (∃ d, ⌜HMInv m c n d⌝ ∗ owns (c : Thread nD τ) scrHM fullShare d)) ∗ (∃ r, prngReg c r)) := rfl

theorem regionInv_pos (c : Dev nD) (n : ℕ) (h : n ≤ cfg0.N) (hz : n ≠ 0) :
    regionInv m c n h = iprop(iprop(owns (c : Thread nD τ) scrXW fullShare (xwOf m c) ∗ (∃ d, ⌜HMInv m c (n - 1) d⌝ ∗ owns (c : Thread nD τ) scrHM fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outMu m c t
    | ⟨7, _⟩ => outLv m c t
  Φ t := regionInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = regionInv m c t.val (Nat.le_of_lt t.isLt) := by
  dsimp only [dats]; simp only [Fin.coe_castSucc]

theorem inv_succ (c : Dev nD) (t : Fin cfg0.N) :
    (dats m 0 c).Φ t.succ = regionInv m c (t.val + 1) t.isLt := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outMu m c t := by dsimp only [dats]
theorem after7 (c : Dev nD) (t : Fin cfg0.N) : (dats m 0 c).after 7 t = outLv m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- An input's buffer is handed back at its block. -/
theorem leaves0 (c : Dev nD) (t : Fin cfg0.N) : (dats m 0 c).leavesExact 0 t = owns (c : Thread nD τ) (stg0 t) fullShare (iblk m c 0 t) := by
  unfold Dat.leavesExact; rw [live0 t, after0]
theorem leaves1 (c : Dev nD) (t : Fin cfg0.N) : (dats m 0 c).leavesExact 1 t = owns (c : Thread nD τ) (stg1 t) fullShare (iblk m c 1 t) := by
  unfold Dat.leavesExact; rw [live1 t, after1]
theorem leaves2 (c : Dev nD) (t : Fin cfg0.N) : (dats m 0 c).leavesExact 2 t = owns (c : Thread nD τ) (stg2 t) fullShare (iblk m c 2 t) := by
  unfold Dat.leavesExact; rw [live2 t, after2]
theorem leaves3 (c : Dev nD) (t : Fin cfg0.N) : (dats m 0 c).leavesExact 3 t = owns (c : Thread nD τ) (stg3 t) fullShare (iblk m c 3 t) := by
  unfold Dat.leavesExact; rw [live3 t, after3]
theorem leaves4 (c : Dev nD) (t : Fin cfg0.N) : (dats m 0 c).leavesExact 4 t = owns (c : Thread nD τ) (stg4 t) fullShare (iblk m c 4 t) := by
  unfold Dat.leavesExact; rw [live4 t, after4]
theorem leaves5 (c : Dev nD) (t : Fin cfg0.N) : (dats m 0 c).leavesExact 5 t = owns (c : Thread nD τ) (stg5 t) fullShare (iblk m c 5 t) := by
  unfold Dat.leavesExact; rw [live5 t, after5]

/-- In phase 0 an output's buffer is handed back as it was found … -/
theorem leaves6_fill (c : Dev nD) (t : Fin cfg0.N) (h : t.val < 25) :
    (dats m 0 c).leavesExact 6 t = iprop(∃ d, owns (c : Thread nD τ) (stg6 t) fullShare ((dats m 0 c).before 6 t d)) :=
  (dats m 0 c).leavesExact_idle 6 t (idle6_fill t h) (Bool.eq_false_iff.mpr fun hf => by have := (flush6_iff t).mp hf; omega)
theorem leaves7_fill (c : Dev nD) (t : Fin cfg0.N) (h : t.val < 25) :
    (dats m 0 c).leavesExact 7 t = iprop(∃ d, owns (c : Thread nD τ) (stg7 t) fullShare ((dats m 0 c).before 7 t d)) :=
  (dats m 0 c).leavesExact_idle 7 t (idle7_fill t h) (Bool.eq_false_iff.mpr fun hf => by have := (flush7_iff t).mp hf; omega)
/-- … and in phase 1 at the stored columns. -/
theorem leaves6_emit (c : Dev nD) (t : Fin cfg0.N) (h : 25 ≤ t.val) :
    (dats m 0 c).leavesExact 6 t = owns (c : Thread nD τ) (stg6 t) fullShare (outMu m c t) := by
  unfold Dat.leavesExact; rw [live6_emit t h, after6]
theorem leaves7_emit (c : Dev nD) (t : Fin cfg0.N) (h : 25 ≤ t.val) :
    (dats m 0 c).leavesExact 7 t = owns (c : Thread nD τ) (stg7 t) fullShare (outLv m c t) := by
  unfold Dat.leavesExact; rw [live7_emit t h, after7]

/-! ## The body obligation's two sides at a point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.Kernel.Hand

end
-- ==== Proof.BitsFillStep.lean ====
/-
  One more block in place. If the blocks of the earlier points of phase 0 are in place in what the second scratch holds,
  and point t < 25 writes its own block over rows [400 t, 400 t + 400), then the blocks of points 0 … t are in place
  afterwards: a row of the new slice reads the slice, and a row of an earlier block lies above the slice and reads what
  was there before.
-/
import proofs.«105579_g49082886258796_cont_8to1c4_279_12_alg».proof.Proof.BitsData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.ValueIdx

variable {F : FTy → Type} [FloatOps F]

variable (m : (ℓ : Loc nD τ sig) → Buf (Elt F) ℓ)

/-- One store over a whole buffer (the rectangle at zero offsets of the buffer's own extents), read back, is what was stored. -/
theorem read_whole_piece {κ : Kind} {sp : Space} {S : Shape} {e : EltTy} (v : View sig κ sp S e) (f : v.ty.Contents (Elt F))
    {off : Fin S.rank → Nat} (hoff : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hoff inb y⟩)).trans
    (View.canon_unit_zero hoff inb w)

theorem HMInv_step (c : Dev nD) (t : Fin cfg0.N) (h1 : t.val < 25) (d : Vec F S10000x64 .f32)
    (hd : t.val ≠ 0 → HMInv m c (t.val - 1) d)
    (inb : ∀ a : Fin 2, (k0_off1 (grid0.coords t)) a + S400x64.size a ≤ (![10000, 64] : Fin 2 → ℕ) a)
    (w : Vec F S400x64 .f32) (hw : w = hmBlk m c t)
    (f : scrHM.view.ty.Contents (Elt F)) (hf : scrHM.view.read (Elt F) f = d) :
    HMInv m c t.val (scrHM.view.read (Elt F) (scrHM.view.writes (Elt F) f
      [(⟨Rect.unit (s := S10000x64) (k0_off1 (grid0.coords t)) S400x64.size inb, w⟩ : View.Piece (Elt F) S10000x64 .f32)])) := by
  intro t' ht' h25 y j hj0 hj1
  have hy0 := idx2_lt0 y
  by_cases htt : t'.val = t.val
  · obtain rfl : t' = t := Fin.ext htt
    rw [View.read_writes_cons_rows_of_mem scrHM.view f inb w [] j y (fillOff t' h1) hj0 hj1, hw]
  · have hlt : t'.val < t.val := by omega
    rw [View.read_writes_cons_rows_of_not_mem scrHM.view f inb w [] j (fillOff t h1) (rfl : S400x64.size (0 : Fin 2) = 400) (Or.inl (by omega))]
    rw [View.writes_nil, hf]
    exact hd (by omega) t' (by omega) h25 y j hj0 hj1

end Cert.Kernel.Hand

end
-- ==== Proof.BitsBodyFirst.lean ====
/-
  The body obligation at the first grid point. The launch hands over both scratch buffers at anything; the run stores
  x · W1 over the whole first scratch and block 0 into the second, so afterwards the first scratch holds x · W1 and
  block 0 of the second is in place. The output windows are idle.
-/
import proofs.«105579_g49082886258796_cont_8to1c4_279_12_alg».proof.Proof.BitsFillStep

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

set_option maxHeartbeats 1600000 in
theorem sound_first (c : Dev nD) (t : Fin cfg0.N) (hz : t.val = 0) :
    bodyPre m c t ⊢ wp frame (wpE (defs₀ (F := F)) Variants.none c none) Set.univ (bodyAt0 t) (fun _ => bodyPost m c t) := by
  obtain rfl : t = pt0 := Fin.ext hz
  unfold bodyPre bodyPost bodyAt0
  simp only [before0, before1, before2, before3, before4, before5]
  rw [show (dats m 0 c).owesAt () (pt0 : Fin cfg0.N).succ = (dats m 0 c).owesAt () (pt0 : Fin cfg0.N).castSucc from rfl]
  rw [inv_succ, regionInv_succ, inv_castSucc, regionInv_zero m c _ _ rfl, regionRest_eq]
  have h1 : (pt0 : Fin cfg0.N).val < 25 := by show 0 < 25; omega
  rw [leaves0, leaves1, leaves2, leaves3, leaves4, leaves5, leaves6_fill m c pt0 h1, leaves7_fill m c pt0 h1]
  have hc0 : atStart (grid0.coords pt0) := (atStart_iff pt0).mpr rfl
  have hc1 : inFill (grid0.coords pt0) := (inFill_iff pt0).mpr h1
  have hc2 : ¬inEmit (grid0.coords pt0) := fun h => by have := (inEmit_iff pt0).mp h; omega
  iintro ⟨⟨⟨⟨%dx, HX⟩, ⟨%d, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords pt0) _ _ _ _ _ _ _ _ _ _ _ _ _ _ _ _ _ _ _ _ hc0 hc1 hc2 (iblk m c 0 pt0) (iblk m c 1 pt0) (iblk m c 2 pt0) (iblk m c 3 pt0) (iblk m c 4 pt0) (iblk m c 5 pt0) ((dats m 0 c).before 6 pt0 d6) ((dats m 0 c).before 7 pt0 d7) d).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexists _; iexact HX
  isplitl [HH]; · iexact HH
  iintro ⟨H0, H1, H2, H3, H4, H5, H6, H7, ⟨%fx, HX⟩, HH⟩
  isplitl [HX HH Hg]
  · isplitl [HX HH]
    · isplitl [HX]
      · rw [runFirst_found_xw]
        unfold owns; iexists _; isplitr
        swap; · iexact HX
        ipureintro
        exact read_whole_piece _ _ zeroOff _ _
      rw [runFirst_found_hm]
      iexists _
      isplitr
      swap
      · unfold owns; iexists _; isplitr
        swap; · iexact HH
        ipureintro; rfl
      ipureintro
      exact HMInv_step m c pt0 h1 d (fun h => absurd rfl h) _ _ rfl _ (Memref.IsWhole.read_unread _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.Kernel.Hand

end
-- ==== Proof.BitsBodyFill.lean ====
/-
  The body obligation at a point of phase 0 other than the first (1 ≤ t < 25). The invariant hands over the first
  scratch at x · W1 and the second at contents whose earlier blocks are in place; the run stores this point's block
  into the second scratch, so afterwards the blocks of points 0 … t are in place. The output windows are idle: their
  buffers go in and come back at what they held.
-/
import proofs.«105579_g49082886258796_cont_8to1c4_279_12_alg».proof.Proof.BitsFillStep

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

set_option maxHeartbeats 1600000 in
theorem sound_fill (c : Dev nD) (t : Fin cfg0.N) (h0 : t.val ≠ 0) (h1 : t.val < 25) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [inv_succ, regionInv_succ, inv_castSucc, regionInv_pos m c _ _ h0]
  rw [leaves0, leaves1, leaves2, leaves3, leaves4, leaves5, leaves6_fill m c t h1, leaves7_fill m c t h1]
  have hc0 : ¬atStart (grid0.coords t) := fun h => h0 ((atStart_iff t).mp h)
  have hc1 : inFill (grid0.coords t) := (inFill_iff t).mpr h1
  have hc2 : ¬inEmit (grid0.coords t) := fun h => by have := (inEmit_iff t).mp h; omega
  iintro ⟨⟨⟨HX, ⟨%d, %hd, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFill c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) ((dats m 0 c).before 6 t d6) ((dats m 0 c).before 7 t d7) (xwOf m c) d).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  isplitl [HH]; · iexact HH
  iintro ⟨H0, H1, H2, H3, H4, H5, H6, H7, HX, HH⟩
  isplitl [HX HH Hg]
  · isplitl [HX HH]
    · isplitl [HX]; · iexact HX
      rw [runFill_found]
      iexists _
      isplitr
      swap
      · unfold owns; iexists _; isplitr
        swap; · iexact HH
        ipureintro; rfl
      ipureintro
      exact HMInv_step m c t h1 d (fun _ => hd) _ _ rfl _ (Memref.IsWhole.read_unread _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.Kernel.Hand

end
-- ==== Proof.BitsBodyEmit.lean ====
/-
  The body obligation at a point of phase 1 (25 ≤ t). All 25 blocks of the second scratch are in place, so it holds
  the one array the invariant's blocks determine; the run reads it whole and leaves columns [0, 32) and [32, 64) of
  adj_block · scratch + [bmu | blv] in the two output buffers. Both scratch buffers come back as they were.
-/
import proofs.«105579_g49082886258796_cont_8to1c4_279_12_alg».proof.Proof.BitsFillStep

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

set_option maxHeartbeats 1600000 in
theorem sound_emit (c : Dev nD) (t : Fin cfg0.N) (h2 : 25 ≤ t.val) :
    bodyPre m c t ⊢ wp frame (wpE (defs₀ (F := F)) Variants.none c none) Set.univ (bodyAt0 t) (fun _ => bodyPost m c t) := by
  have h0 : t.val ≠ 0 := by omega
  unfold bodyPre bodyPost bodyAt0
  simp only [before0, before1, before2, before3, before4, before5]
  rw [show (dats m 0 c).owesAt () t.succ = (dats m 0 c).owesAt () t.castSucc from rfl]
  rw [inv_succ, regionInv_succ, inv_castSucc, regionInv_pos m c _ _ h0]
  rw [leaves0, leaves1, leaves2, leaves3, leaves4, leaves5, leaves6_emit m c t h2, leaves7_emit m c t h2]
  have hc0 : ¬atStart (grid0.coords t) := fun h => h0 ((atStart_iff t).mp h)
  have hc1 : ¬inFill (grid0.coords t) := fun h => by have := (inFill_iff t).mp h; omega
  have hc2 : inEmit (grid0.coords t) := (inEmit_iff t).mpr h2
  iintro ⟨⟨⟨HX, ⟨%d, %hd, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl : d = hmArr m c := HMInv_full m c (t.val - 1) (by omega) d hd
  iapply ((runEmit c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (xwOf m c) (hmArr m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HX]; · iexact HX
  isplitl [HH]; · iexact HH
  iintro ⟨H0, H1, H2, H3, H4, H5, ⟨%f6, H6⟩, ⟨%f7, H7⟩, HX, HH⟩
  isplitl [HX HH Hg]
  · isplitl [HX HH]
    · isplitl [HX]; · iexact HX
      iexists _
      isplitr
      swap; · iexact HH
      ipureintro
      exact HMInv_mono m c (t.val - 1) t.val (by omega) _ hd
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [runEmit_found_6]
    unfold owns; iexists _; isplitr
    swap; · iexact H6
    ipureintro
    exact read_whole_piece _ _ zeroOff _ _
  rw [runEmit_found_7]
  unfold owns; iexists _; isplitr
  swap; · iexact H7
  ipureintro
  exact read_whole_piece _ _ zeroOff _ _

end Cert.Kernel.Hand

end
-- ==== Proof.BitsFrame.lean ====
/-
  The frame of the one pallas_call, at any float instance: the body obligation at every grid point (the first point, the
  later points of phase 0, the points of phase 1), what the launch hands over as the invariant before point 0, the
  invariant after the last point giving the scratch buffers back, and with these the run of @main: it terminates, nothing
  faults, every output array ends at what the proof data's write-backs leave, and every argument array ends unchanged.
-/
import proofs.«105579_g49082886258796_cont_8to1c4_279_12_alg».proof.Proof.BitsBodyFirst
import proofs.«105579_g49082886258796_cont_8to1c4_279_12_alg».proof.Proof.BitsBodyFill
import proofs.«105579_g49082886258796_cont_8to1c4_279_12_alg».proof.Proof.BitsBodyEmit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: by the point's phase. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  · by_cases h1 : t.val < 25
    · exact sound_fill m c t hz h1
    · exact sound_emit m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = regionInv m c 0 (Nat.zero_le _) from rfl, regionInv_zero m c 0 _ rfl]
  try exact Idealize.SL.BI.Entails.refl _

/-- After the last point the invariant gives both scratch buffers back at some contents. -/
theorem inv_out (c : Dev nD) : (dats m 0 c).Φ (Fin.last cfg0.N) ⊢ Pipeline.ΦA spec0 c := by
  rw [show (dats m 0 c).Φ (Fin.last cfg0.N) = regionInv m c (Fin.last cfg0.N).val (Nat.le_of_lt_succ (Fin.last cfg0.N).isLt) from rfl,
    regionInv_pos m c _ _ (by rw [Fin.val_last]; have : cfg0.N = 50 := N_0; omega), regionRest_eq]
  iintro ⟨⟨HX, ⟨%d, %hd, HH⟩⟩, Hg⟩
  isplitl [HX HH]
  · isplitl [HX]
    · iexists _; iexact HX
    iexists _; iexact HH
  iexact Hg

set_option backward.isDefEq.respectTransparency.types false in
/-- Every weakly fair execution of @main terminates, and in every final state each array of the pipeline holds what the
    proof data's write-backs leave and every other unscoped buffer what it held at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- In a final state of that run every argument array holds what it was launched with: a staged input's array is never
    written, and the other arguments bypass the region. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame claim's post: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.IdealPoints.lean ====
/-
  The grid of the one pallas_call has 50 points, in order (p, i) with p ∈ {0, 1} the phase and i ∈ [0, 25) the row block of the
  adjacency matrix: point t is (t / 25, t % 25). The body has three branches, all decided by the coordinates:
  the first branch is taken at point 0 only (it forms x · W1 once), the second at the points of phase 0 (t < 25: it
  fills rows [400 t, 400 t + 400) of the second scratch), the third at the points of phase 1 (25 ≤ t: it writes the two
  output blocks). This module decides those facts over the grid, gives the row offset of the second branch's slice in
  closed form, says at which points the two output windows are written back (exactly the points of phase 1, block
  t - 25) and where they are idle (phase 0), and names the staging memrefs and the two scratch buffers a point runs on.
-/
import proofs.«105579_g49082886258796_cont_8to1c4_279_12_alg».proof.Proof.Gen.KernelIdeal.Frame
import proofs.«105579_g49082886258796_cont_8to1c4_279_12_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three branch conditions over the grid -/

/-- The condition of the first branch: both coordinates are zero. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem atStart_iff : ∀ t : Fin cfg0.N, atStart (grid0.coords t) ↔ t.val = 0 :=
  (by decide +kernel : ∀ t : Fin grid0.N, atStart (grid0.coords t) ↔ t.val = 0)

/-- The condition of the second branch: phase 0. -/
abbrev inFill (i : grid0.Coords) : Prop := k0_cond2 i = 1#1
theorem inFill_iff : ∀ t : Fin cfg0.N, inFill (grid0.coords t) ↔ t.val < 25 :=
  (by decide +kernel : ∀ t : Fin grid0.N, inFill (grid0.coords t) ↔ t.val < 25)

/-- The condition of the third branch: phase 1. -/
abbrev inEmit (i : grid0.Coords) : Prop := k0_cond3 i = 1#1
theorem inEmit_iff : ∀ t : Fin cfg0.N, inEmit (grid0.coords t) ↔ 25 ≤ t.val :=
  (by decide +kernel : ∀ t : Fin grid0.N, inEmit (grid0.coords t) ↔ 25 ≤ t.val)

theorem N_eq : cfg0.N = 50 := N_0

/-- In phase 0 the slice the second branch stores starts at row 400 t, column 0. -/
theorem fillOff : ∀ t : Fin cfg0.N, t.val < 25 → k0_off1 (grid0.coords t) = ![400 * t.val, 0] :=
  (by decide +kernel : ∀ t : Fin grid0.N, t.val < 25 → k0_off1 (grid0.coords t) = ![400 * t.val, 0])

/-! ## The output windows' schedule -/

/-- Output window 6 is written back exactly at the points of phase 1 … -/
theorem flush6_iff : ∀ t : Fin cfg0.N, (cfg0.win 6).flush t = true ↔ 25 ≤ t.val :=
  (by decide +kernel : ∀ t : Fin grid0.N, win0_6.flush t = true ↔ 25 ≤ t.val)
theorem flush7_iff : ∀ t : Fin cfg0.N, (cfg0.win 7).flush t = true ↔ 25 ≤ t.val :=
  (by decide +kernel : ∀ t : Fin grid0.N, win0_7.flush t = true ↔ 25 ≤ t.val)
/-- … and there its block is block t - 25 of the 25 row blocks. -/
theorem index6 : ∀ t : Fin cfg0.N, 25 ≤ t.val → win0_6.index t = ![t.val - 25, 0] :=
  (by decide +kernel : ∀ t : Fin grid0.N, 25 ≤ t.val → win0_6.index t = ![t.val - 25, 0])
theorem index7 : ∀ t : Fin cfg0.N, 25 ≤ t.val → win0_7.index t = ![t.val - 25, 0] :=
  (by decide +kernel : ∀ t : Fin grid0.N, 25 ≤ t.val → win0_7.index t = ![t.val - 25, 0])
/-- The adjacency window's block at point t is row block t % 25. -/
theorem index1 : ∀ t : Fin cfg0.N, win0_1.index t = ![t.val % 25, 0] :=
  (by decide +kernel : ∀ t : Fin grid0.N, win0_1.index t = ![t.val % 25, 0])

/-- The inputs are never idle; the outputs are idle in phase 0 and live in phase 1. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6_fill : ∀ t : Fin cfg0.N, t.val < 25 → cfg0.idle 6 (grid0.coords t) = true :=
  (by decide +kernel : ∀ t : Fin grid0.N, t.val < 25 → cfg0.idle 6 (grid0.coords t) = true)
theorem idle7_fill : ∀ t : Fin cfg0.N, t.val < 25 → cfg0.idle 7 (grid0.coords t) = true :=
  (by decide +kernel : ∀ t : Fin grid0.N, t.val < 25 → cfg0.idle 7 (grid0.coords t) = true)
theorem live6_emit : ∀ t : Fin cfg0.N, 25 ≤ t.val → cfg0.idle 6 (grid0.coords t) = false :=
  (by decide +kernel : ∀ t : Fin grid0.N, 25 ≤ t.val → cfg0.idle 6 (grid0.coords t) = false)
theorem live7_emit : ∀ t : Fin cfg0.N, 25 ≤ t.val → cfg0.idle 7 (grid0.coords t) = false :=
  (by decide +kernel : ∀ t : Fin grid0.N, 25 ≤ t.val → cfg0.idle 7 (grid0.coords t) = false)

/-! ## The memrefs a point runs on -/

abbrev stg0 (t : Fin cfg0.N) : Memref sig .tc .vmem S10000x128 .f32 := win0_0.stage (cfg0.slots t 0)
abbrev wh0 (t : Fin cfg0.N) : (stg0 t).IsWhole := hstage0_0 ((cfg0.slots t 0).cast nbuf0_0)
abbrev stg1 (t : Fin cfg0.N) : Memref sig .tc .vmem S400x10000 .f32 := win0_1.stage (cfg0.slots t 1)
abbrev wh1 (t : Fin cfg0.N) : (stg1 t).IsWhole := hstage0_1 ((cfg0.slots t 1).cast nbuf0_1)
abbrev stg2 (t : Fin cfg0.N) : Memref sig .tc .vmem S128x64 .f32 := win0_2.stage (cfg0.slots t 2)
abbrev wh2 (t : Fin cfg0.N) : (stg2 t).IsWhole := hstage0_2 ((cfg0.slots t 2).cast nbuf0_2)
abbrev stg3 (t : Fin cfg0.N) : Memref sig .tc .vmem S1x64 .f32 := win0_3.stage (cfg0.slots t 3)
abbrev wh3 (t : Fin cfg0.N) : (stg3 t).IsWhole := hstage0_3 ((cfg0.slots t 3).cast nbuf0_3)
abbrev stg4 (t : Fin cfg0.N) : Memref sig .tc .vmem S64x64 .f32 := win0_4.stage (cfg0.slots t 4)
abbrev wh4 (t : Fin cfg0.N) : (stg4 t).IsWhole := hstage0_4 ((cfg0.slots t 4).cast nbuf0_4)
abbrev stg5 (t : Fin cfg0.N) : Memref sig .tc .vmem S1x64 .f32 := win0_5.stage (cfg0.slots t 5)
abbrev wh5 (t : Fin cfg0.N) : (stg5 t).IsWhole := hstage0_5 ((cfg0.slots t 5).cast nbuf0_5)
abbrev stg6 (t : Fin cfg0.N) : Memref sig .tc .vmem S400x32 .f32 := win0_6.stage (cfg0.slots t 6)
abbrev wh6 (t : Fin cfg0.N) : (stg6 t).IsWhole := hstage0_6 ((cfg0.slots t 6).cast nbuf0_6)
abbrev stg7 (t : Fin cfg0.N) : Memref sig .tc .vmem S400x32 .f32 := win0_7.stage (cfg0.slots t 7)
abbrev wh7 (t : Fin cfg0.N) : (stg7 t).IsWhole := hstage0_7 ((cfg0.slots t 7).cast nbuf0_7)
/-- The two scratch buffers: the first holds x · W1, the second the rows of relu(adj · (x · W1) + b1) · [Wmu | Wlv]. -/
abbrev scrXW : Memref sig .tc .vmem S10000x64 .f32 := Memref.whole cc0_scratch0
abbrev scrHM : Memref sig .tc .vmem S10000x64 .f32 := Memref.whole cc0_scratch1

/-- What the launch hands the region beside the windows: the two scratch buffers at some contents and the generator register. -/
theorem regionRest_eq (c : Dev nD) :
    (Pipeline.ΦA spec0 c : sProp 𝕄)
      = iprop(iprop((∃ d, owns (c : Thread nD τ) scrXW fullShare d) ∗ (∃ d, owns (c : Thread nD τ) scrHM fullShare d)) ∗ (∃ r, prngReg c r)) := by
  unfold Pipeline.ΦA; rw [scopedRest0_eq]; simp only [scrXW, scrHM, owns_whole]; try rfl

end Cert.KernelIdeal.Hand

end
-- ==== Proof.IdealRunFirst.lean ====
/-
  The body at the first grid point (t = 0): the first and the second branch run. The first forms x · W1 from the whole
  feature block and the first weight block and stores it over the whole first scratch; the second then reads that
  scratch back, and stores relu(adj_block · (x · W1) + b1) · [Wmu | Wlv] into rows [0, 400) of the second scratch.
  The first scratch is handed in at anything (nothing has written it yet) and handed back with the stored pieces over
  it; the second scratch is handed in at named contents and handed back with one slice written over them.
-/
import proofs.«105579_g49082886258796_cont_8to1c4_279_12_alg».proof.Proof.IdealPoints

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the first point stores into the first scratch (first list) and into the second scratch (second list), with the
    body's run: inputs and output buffers handed back as found. -/
noncomputable def runFirst (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : atStart i) (hc1 : inFill i) (hc2 : ¬inEmit i)
    (x0 : Vec F S10000x128 .f32) (x1 : Vec F S400x10000 .f32) (x2 : Vec F S128x64 .f32) (x3 : Vec F S1x64 .f32) (x4 : Vec F S64x64 .f32) (x5 : Vec F S1x64 .f32) (xo6 xo7 : Vec F S400x32 .f32) (hm : Vec F S10000x64 .f32) :
    (LX : List (View.Piece (Elt F) S10000x64 .f32)) ×' (LH : List (View.Piece (Elt F) S10000x64 .f32)) ×'
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ (∃ d, owns (c : Thread nD τ) arg10 fullShare d) ∗ owns (c : Thread nD τ) arg11 fullShare hm
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ (∃ f, arg10.view.loc (c : Thread nD τ) ↦[arg10.view.set]{fullShare} arg10.view.writes (Elt F) f LX) ∗ (arg11.view.loc (c : Thread nD τ) ↦[arg11.view.set]{fullShare} arg11.view.writes (Elt F) (harg11.unread hm) LH)) -∗ K ⟨⟩))
          ⊢ wp frame (wpE (defs₀ (F := F)) Variants.none c none) E (cc0_fused_kernel i arg2 harg2 arg3 harg3 arg4 harg4 arg5 harg5 arg6 harg6 arg7 harg7 arg8 harg8 arg9 harg9 arg10 harg10 arg11 harg11) K := by
  refine ⟨?_, ?_, fun E K => ?run⟩
  case run =>
    simp only [cc0_fused_kernel_eq_skeleton]; unfold cc0_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexact HS1

end Cert.KernelIdeal.Hand

end
-- ==== Proof.IdealRunFill.lean ====
/-
  The body at a point of phase 0 other than the first (1 ≤ t < 25): only the second branch runs. It reads the adjacency
  row block, the first scratch (x · W1, stored at point 0), the bias row and the concatenated weights, and stores
  relu(adj_block · (x · W1) + b1) · [Wmu | Wlv] into rows [400 t, 400 t + 400) of the second scratch; everything else it
  was handed it hands back as it was. The triple is stated with the second scratch handed in at named contents and handed
  back with one slice written over them; which slice and with what is found when the body is run.
-/
import proofs.«105579_g49082886258796_cont_8to1c4_279_12_alg».proof.Proof.IdealPoints

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The slice a later point of phase 0 writes into the second scratch (the list's one piece), with the body's run:
    inputs, output buffers and first scratch handed back as found, the second scratch with the slice written. -/
noncomputable def runFill (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : ¬atStart i) (hc1 : inFill i) (hc2 : ¬inEmit i)
    (x0 : Vec F S10000x128 .f32) (x1 : Vec F S400x10000 .f32) (x2 : Vec F S128x64 .f32) (x3 : Vec F S1x64 .f32) (x4 : Vec F S64x64 .f32) (x5 : Vec F S1x64 .f32) (xo6 xo7 : Vec F S400x32 .f32) (xw hm : Vec F S10000x64 .f32) :
    { LH : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ owns (c : Thread nD τ) arg10 fullShare xw ∗ owns (c : Thread nD τ) arg11 fullShare hm
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ owns (c : Thread nD τ) arg10 fullShare xw ∗ (arg11.view.loc (c : Thread nD τ) ↦[arg11.view.set]{fullShare} arg11.view.writes (Elt F) (harg11.unread hm) LH)) -∗ K ⟨⟩))
          ⊢ wp frame (wpE (defs₀ (F := F)) Variants.none c none) E (cc0_fused_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0_fused_kernel_eq_skeleton]; unfold cc0_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    iexact HS1

end Cert.KernelIdeal.Hand

end
-- ==== Proof.IdealRunEmit.lean ====
/-
  The body at a point of phase 1 (25 ≤ t): only the third branch runs. It reads the adjacency row block, the whole
  second scratch and the concatenated bias row, forms adj_block · scratch + [bmu | blv], and stores its columns [0, 32)
  over the whole first output block and its columns [32, 64) over the whole second output block. Both scratch buffers
  are handed back as found; the output buffers are handed in at anything and handed back with the stored pieces.
-/
import proofs.«105579_g49082886258796_cont_8to1c4_279_12_alg».proof.Proof.IdealPoints

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What a point of phase 1 stores into the first output's buffer (first list) and the second's (second list), with the
    body's run: inputs and both scratch buffers handed back as found. -/
noncomputable def runEmit (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : ¬atStart i) (hc1 : ¬inFill i) (hc2 : inEmit i)
    (x0 : Vec F S10000x128 .f32) (x1 : Vec F S400x10000 .f32) (x2 : Vec F S128x64 .f32) (x3 : Vec F S1x64 .f32) (x4 : Vec F S64x64 .f32) (x5 : Vec F S1x64 .f32) (xw hm : Vec F S10000x64 .f32) :
    (L6 : List (View.Piece (Elt F) S400x32 .f32)) ×' (L7 : List (View.Piece (Elt F) S400x32 .f32)) ×'
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xw ∗ owns (c : Thread nD τ) arg11 fullShare hm
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xw ∗ owns (c : Thread nD τ) arg11 fullShare hm) -∗ K ⟨⟩))
          ⊢ wp frame (wpE (defs₀ (F := F)) Variants.none c none) E (cc0_fused_kernel i arg2 harg2 arg3 harg3 arg4 harg4 arg5 harg5 arg6 harg6 arg7 harg7 arg8 harg8 arg9 harg9 arg10 harg10 arg11 harg11) K := by
  refine ⟨?_, ?_, fun E K => ?run⟩
  case run =>
    simp only [cc0_fused_kernel_eq_skeleton]; unfold cc0_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _; isplitr; · ipureintro; exact harg10.read_unread _
      iexact HS0
    iexists _; isplitr; · ipureintro; exact harg11.read_unread _
    iexact HS1

end Cert.KernelIdeal.Hand

end
-- ==== Proof.IdealFound.lean ====
/-
  What the three runs of the body found, read back as plain payload terms over the blocks the buffers were handed at:
  a load of a whole buffer held at named contents is those contents, and a load of the first scratch right after the
  first branch stored over all of it is what was stored.
-/
import proofs.«105579_g49082886258796_cont_8to1c4_279_12_alg».proof.Proof.IdealRunFirst
import proofs.«105579_g49082886258796_cont_8to1c4_279_12_alg».proof.Proof.IdealRunFill
import proofs.«105579_g49082886258796_cont_8to1c4_279_12_alg».proof.Proof.IdealRunEmit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zeroOff : (![0, 0] : Fin 2 → Nat) = fun _ => 0 := funext fun a => by fin_cases a <;> rfl

/-- A later point of phase 0 writes one slice: rows from the point's offset, all 64 columns, holding
    relu(adj_block · xw + b1) · Wcat as the payload `k0_pay2` spells it. -/
theorem runFill_found (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : ¬atStart i) (hc1 : inFill i) (hc2 : ¬inEmit i)
    (x0 : Vec F S10000x128 .f32) (x1 : Vec F S400x10000 .f32) (x2 : Vec F S128x64 .f32) (x3 : Vec F S1x64 .f32) (x4 : Vec F S64x64 .f32) (x5 : Vec F S1x64 .f32) (xo6 xo7 : Vec F S400x32 .f32) (xw hm : Vec F S10000x64 .f32) :
    (runFill c i arg2 harg2 arg3 harg3 arg4 harg4 arg5 harg5 arg6 harg6 arg7 harg7 arg8 harg8 arg9 harg9 arg10 harg10 arg11 harg11 hc0 hc1 hc2 x0 x1 x2 x3 x4 x5 xo6 xo7 xw hm).1
      = [⟨Rect.unit (s := S10000x64) (k0_off1 i) S400x64.size (k0_off1_inb i hc1), k0_pay2 x1 xw x3 x4⟩] := by
  unfold runFill
  dsimp only
  try sl_unfold_run_names
  simp only [View.readAt_eq_ld, Memref.IsWhole.read_unread, View.ld_unit_zero (S := S400x10000) zeroOff, View.ld_unit_zero (S := S10000x64) zeroOff, View.ld_unit_zero (S := S1x64) zeroOff, View.ld_unit_zero (S := S64x64) zeroOff]

/-- The first point stores x · W1 (the payload `k0_pay1`) over the whole first scratch … -/
theorem runFirst_found_xw (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : atStart i) (hc1 : inFill i) (hc2 : ¬inEmit i)
    (x0 : Vec F S10000x128 .f32) (x1 : Vec F S400x10000 .f32) (x2 : Vec F S128x64 .f32) (x3 : Vec F S1x64 .f32) (x4 : Vec F S64x64 .f32) (x5 : Vec F S1x64 .f32) (xo6 xo7 : Vec F S400x32 .f32) (hm : Vec F S10000x64 .f32) :
    (runFirst c i arg2 harg2 arg3 harg3 arg4 harg4 arg5 harg5 arg6 harg6 arg7 harg7 arg8 harg8 arg9 harg9 arg10 harg10 arg11 harg11 hc0 hc1 hc2 x0 x1 x2 x3 x4 x5 xo6 xo7 hm).1
      = [⟨Rect.unit (s := S10000x64) ![0, 0] S10000x64.size inb_S10000x64_S10000x64_0_0, k0_pay1 x0 x2⟩] := by
  unfold runFirst
  dsimp only
  try sl_unfold_run_names
  simp only [View.readAt_eq_ld, Memref.IsWhole.read_unread, View.ld_unit_zero (S := S10000x128) zeroOff, View.ld_unit_zero (S := S128x64) zeroOff]

/-- … and one slice of the second scratch, computed from the x · W1 it has just stored. -/
theorem runFirst_found_hm (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : atStart i) (hc1 : inFill i) (hc2 : ¬inEmit i)
    (x0 : Vec F S10000x128 .f32) (x1 : Vec F S400x10000 .f32) (x2 : Vec F S128x64 .f32) (x3 : Vec F S1x64 .f32) (x4 : Vec F S64x64 .f32) (x5 : Vec F S1x64 .f32) (xo6 xo7 : Vec F S400x32 .f32) (hm : Vec F S10000x64 .f32) :
    (runFirst c i arg2 harg2 arg3 harg3 arg4 harg4 arg5 harg5 arg6 harg6 arg7 harg7 arg8 harg8 arg9 harg9 arg10 harg10 arg11 harg11 hc0 hc1 hc2 x0 x1 x2 x3 x4 x5 xo6 xo7 hm).2.1
      = [⟨Rect.unit (s := S10000x64) (k0_off1 i) S400x64.size (k0_off1_inb i hc1), k0_pay2 x1 (k0_pay1 x0 x2) x3 x4⟩] := by
  unfold runFirst
  dsimp only
  try sl_unfold_run_names
  simp only [View.readAt_eq_ld, Memref.IsWhole.read_unread, View.readCov_unit_zero (S := S10000x64) _ zeroOff, View.ld_unit_zero (S := S10000x128) zeroOff, View.ld_unit_zero (S := S128x64) zeroOff, View.ld_unit_zero (S := S400x10000) zeroOff, View.ld_unit_zero (S := S1x64) zeroOff, View.ld_unit_zero (S := S64x64) zeroOff]

/-- A point of phase 1 stores columns [0, 32) of adj_block · hm + bcat (the payload `k0_pay4`) over the whole first output block … -/
theorem runEmit_found_6 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : ¬atStart i) (hc1 : ¬inFill i) (hc2 : inEmit i)
    (x0 : Vec F S10000x128 .f32) (x1 : Vec F S400x10000 .f32) (x2 : Vec F S128x64 .f32) (x3 : Vec F S1x64 .f32) (x4 : Vec F S64x64 .f32) (x5 : Vec F S1x64 .f32) (xw hm : Vec F S10000x64 .f32) :
    (runEmit c i arg2 harg2 arg3 harg3 arg4 harg4 arg5 harg5 arg6 harg6 arg7 harg7 arg8 harg8 arg9 harg9 arg10 harg10 arg11 harg11 hc0 hc1 hc2 x0 x1 x2 x3 x4 x5 xw hm).1
      = [⟨Rect.unit (s := S400x32) ![0, 0] S400x32.size inb_S400x32_S400x32_0_0, k0_pay4 x1 hm x5⟩] := by
  unfold runEmit
  dsimp only
  try sl_unfold_run_names
  simp only [View.readAt_eq_ld, Memref.IsWhole.read_unread, View.ld_unit_zero (S := S400x10000) zeroOff, View.ld_unit_zero (S := S10000x64) zeroOff, View.ld_unit_zero (S := S1x64) zeroOff]

/-- … and columns [32, 64) (the payload `k0_pay5`) over the whole second output block. -/
theorem runEmit_found_7 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x32 .f32) (harg8 : arg8.IsWhole) (arg9 : Memref sig .tc .vmem S400x32 .f32) (harg9 : arg9.IsWhole) (arg10 : Memref sig .tc .vmem S10000x64 .f32) (harg10 : arg10.IsWhole) (arg11 : Memref sig .tc .vmem S10000x64 .f32) (harg11 : arg11.IsWhole) (hc0 : ¬atStart i) (hc1 : ¬inFill i) (hc2 : inEmit i)
    (x0 : Vec F S10000x128 .f32) (x1 : Vec F S400x10000 .f32) (x2 : Vec F S128x64 .f32) (x3 : Vec F S1x64 .f32) (x4 : Vec F S64x64 .f32) (x5 : Vec F S1x64 .f32) (xw hm : Vec F S10000x64 .f32) :
    (runEmit c i arg2 harg2 arg3 harg3 arg4 harg4 arg5 harg5 arg6 harg6 arg7 harg7 arg8 harg8 arg9 harg9 arg10 harg10 arg11 harg11 hc0 hc1 hc2 x0 x1 x2 x3 x4 x5 xw hm).2.1
      = [⟨Rect.unit (s := S400x32) ![0, 0] S400x32.size inb_S400x32_S400x32_0_0, k0_pay5 x1 hm x5⟩] := by
  unfold runEmit
  dsimp only
  try sl_unfold_run_names
  simp only [View.readAt_eq_ld, Memref.IsWhole.read_unread, View.ld_unit_zero (S := S400x10000) zeroOff, View.ld_unit_zero (S := S10000x64) zeroOff, View.ld_unit_zero (S := S1x64) zeroOff]

end Cert.KernelIdeal.Hand

end
-- ==== Proof.IdealData.lean ====
/-
  The proof data of the one pipeline, at any float instance.
  What the run keeps between grid points: the first scratch holds x · W1 from point 0 on (as the payload `k0_pay1` of the
  feature block and the first weight block); after point n of phase 0 rows [0, 400 (n + 1)) of the second scratch hold, block
  by block, relu(adj_block · (x · W1) + b1) · [Wmu | Wlv] (the payload `k0_pay2` of that block's adjacency rows), and after
  point 24 that is all of it: one array `hmArr`, row r being row r % 400 of block r / 400. The rows not yet written
  hold anything, so the invariant names the written rows only. A point of phase 1 leaves in the two output buffers
  columns [0, 32) and [32, 64) of adj_block · hmArr + [bmu | blv] (the payloads `k0_pay4`, `k0_pay5`). In phase 0 the
  output windows are idle and their buffers pass through untouched.
-/
import proofs.«105579_g49082886258796_cont_8to1c4_279_12_alg».proof.Proof.IdealFound
import Idealize.ShloMosaic.Lib.ValueIdx
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos : 0 < cfg0.N := by rw [N_eq]; decide
/-- The first grid point. -/
abbrev pt0 : Fin cfg0.N := ⟨0, N_pos⟩

/-! ## What the scratch buffers and the output buffers hold -/

/-- x · W1 as the first point forms it from the feature block and the first weight block. -/
def xwOf (c : Dev nD) : Vec F S10000x64 .f32 := k0_pay1 (iblk m c 0 pt0) (iblk m c 2 pt0)

/-- The 400 rows point t of phase 0 stores into the second scratch. -/
def hmBlk (c : Dev nD) (t : Fin cfg0.N) : Vec F S400x64 .f32 := k0_pay2 (iblk m c 1 t) (xwOf m c) (iblk m c 3 t) (iblk m c 4 t)

/-- The second scratch once phase 0 is over: row r is row r % 400 of the block point r / 400 stored. -/
def hmArr (c : Dev nD) : Vec F S10000x64 .f32 := fun j =>
  hmBlk m c ⟨(j 0).val / 400, by have := idx2_lt0 j; rw [N_eq]; omega⟩
    (ix2 (⟨(j 0).val % 400, Nat.mod_lt _ (by decide)⟩ : Fin 400) (⟨(j 1).val, idx2_lt1 j⟩ : Fin 64))

/-- After point n the blocks of points 0 … min n 24 are in place in contents `d` of the second scratch. -/
def HMInv (c : Dev nD) (n : ℕ) (d : Vec F S10000x64 .f32) : Prop :=
  ∀ (t : Fin cfg0.N), t.val ≤ n → t.val < 25 → ∀ (y : S400x64.Idx) (j : S10000x64.Idx),
    (j 0).val = 400 * t.val + (y 0).val → (j 1).val = (y 1).val → d j = hmBlk m c t y

/-- Once all 25 blocks are in place the contents are `hmArr`. -/
theorem HMInv_full (c : Dev nD) (n : ℕ) (hn : 24 ≤ n) (d : Vec F S10000x64 .f32) (h : HMInv m c n d) : d = hmArr m c := by
  funext j
  have h0 := idx2_lt0 j
  exact h ⟨(j 0).val / 400, by rw [N_eq]; omega⟩ (by show (j 0).val / 400 ≤ n; omega) (by show (j 0).val / 400 < 25; omega) _ j
    (by show (j 0).val = 400 * ((j 0).val / 400) + (j 0).val % 400; omega) rfl

theorem HMInv_mono (c : Dev nD) (n n' : ℕ) (hn : 24 ≤ n) (d : Vec F S10000x64 .f32) (h : HMInv m c n d) : HMInv m c n' d :=
  fun t _ h25 y j h0 h1 => h t (by omega) h25 y j h0 h1

/-- What a point of phase 1 leaves in the two output buffers. -/
def outMu (c : Dev nD) (t : Fin cfg0.N) : Vec F S400x32 .f32 := k0_pay4 (iblk m c 1 t) (hmArr m c) (iblk m c 5 t)
def outLv (c : Dev nD) (t : Fin cfg0.N) : Vec F S400x32 .f32 := k0_pay5 (iblk m c 1 t) (hmArr m c) (iblk m c 5 t)

/-! ## The invariant between points -/

/-- Before point 0: what the launch hands over (both scratch buffers at anything). Before point n + 1: the first scratch at
    x · W1, the second at contents whose written blocks are in place, the generator register at some state. -/
def regionInv (c : Dev nD) : (n : ℕ) → n ≤ cfg0.N → sProp 𝕄
  | 0, _ => Pipeline.ΦA spec0 c
  | n + 1, _ => iprop(iprop(owns (c : Thread nD τ) scrXW fullShare (xwOf m c) ∗ (∃ d, ⌜HMInv m c n d⌝ ∗ owns (c : Thread nD τ) scrHM fullShare d)) ∗ (∃ r, prngReg c r))

theorem regionInv_zero (c : Dev nD) (n : ℕ) (h : n ≤ cfg0.N) (hz : n = 0) : regionInv m c n h = Pipeline.ΦA spec0 c := by
  subst hz; rfl

theorem regionInv_succ (c : Dev nD) (n : ℕ) (hn : n + 1 ≤ cfg0.N) :
    regionInv m c (n + 1) hn = iprop(iprop(owns (c : Thread nD τ) scrXW fullShare (xwOf m c) ∗ (∃ d, ⌜HMInv m c n d⌝ ∗ owns (c : Thread nD τ) scrHM fullShare d)) ∗ (∃ r, prngReg c r)) := rfl

theorem regionInv_pos (c : Dev nD) (n : ℕ) (h : n ≤ cfg0.N) (hz : n ≠ 0) :
    regionInv m c n h = iprop(iprop(owns (c : Thread nD τ) scrXW fullShare (xwOf m c) ∗ (∃ d, ⌜HMInv m c (n - 1) d⌝ ∗ owns (c : Thread nD τ) scrHM fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outMu m c t
    | ⟨7, _⟩ => outLv m c t
  Φ t := regionInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = regionInv m c t.val (Nat.le_of_lt t.isLt) := by
  dsimp only [dats]; simp only [Fin.coe_castSucc]

theorem inv_succ (c : Dev nD) (t : Fin cfg0.N) :
    (dats m 0 c).Φ t.succ = regionInv m c (t.val + 1) t.isLt := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outMu m c t := by dsimp only [dats]
theorem after7 (c : Dev nD) (t : Fin cfg0.N) : (dats m 0 c).after 7 t = outLv m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- An input's buffer is handed back at its block. -/
theorem leaves0 (c : Dev nD) (t : Fin cfg0.N) : (dats m 0 c).leavesExact 0 t = owns (c : Thread nD τ) (stg0 t) fullShare (iblk m c 0 t) := by
  unfold Dat.leavesExact; rw [live0 t, after0]
theorem leaves1 (c : Dev nD) (t : Fin cfg0.N) : (dats m 0 c).leavesExact 1 t = owns (c : Thread nD τ) (stg1 t) fullShare (iblk m c 1 t) := by
  unfold Dat.leavesExact; rw [live1 t, after1]
theorem leaves2 (c : Dev nD) (t : Fin cfg0.N) : (dats m 0 c).leavesExact 2 t = owns (c : Thread nD τ) (stg2 t) fullShare (iblk m c 2 t) := by
  unfold Dat.leavesExact; rw [live2 t, after2]
theorem leaves3 (c : Dev nD) (t : Fin cfg0.N) : (dats m 0 c).leavesExact 3 t = owns (c : Thread nD τ) (stg3 t) fullShare (iblk m c 3 t) := by
  unfold Dat.leavesExact; rw [live3 t, after3]
theorem leaves4 (c : Dev nD) (t : Fin cfg0.N) : (dats m 0 c).leavesExact 4 t = owns (c : Thread nD τ) (stg4 t) fullShare (iblk m c 4 t) := by
  unfold Dat.leavesExact; rw [live4 t, after4]
theorem leaves5 (c : Dev nD) (t : Fin cfg0.N) : (dats m 0 c).leavesExact 5 t = owns (c : Thread nD τ) (stg5 t) fullShare (iblk m c 5 t) := by
  unfold Dat.leavesExact; rw [live5 t, after5]

/-- In phase 0 an output's buffer is handed back as it was found … -/
theorem leaves6_fill (c : Dev nD) (t : Fin cfg0.N) (h : t.val < 25) :
    (dats m 0 c).leavesExact 6 t = iprop(∃ d, owns (c : Thread nD τ) (stg6 t) fullShare ((dats m 0 c).before 6 t d)) :=
  (dats m 0 c).leavesExact_idle 6 t (idle6_fill t h) (Bool.eq_false_iff.mpr fun hf => by have := (flush6_iff t).mp hf; omega)
theorem leaves7_fill (c : Dev nD) (t : Fin cfg0.N) (h : t.val < 25) :
    (dats m 0 c).leavesExact 7 t = iprop(∃ d, owns (c : Thread nD τ) (stg7 t) fullShare ((dats m 0 c).before 7 t d)) :=
  (dats m 0 c).leavesExact_idle 7 t (idle7_fill t h) (Bool.eq_false_iff.mpr fun hf => by have := (flush7_iff t).mp hf; omega)
/-- … and in phase 1 at the stored columns. -/
theorem leaves6_emit (c : Dev nD) (t : Fin cfg0.N) (h : 25 ≤ t.val) :
    (dats m 0 c).leavesExact 6 t = owns (c : Thread nD τ) (stg6 t) fullShare (outMu m c t) := by
  unfold Dat.leavesExact; rw [live6_emit t h, after6]
theorem leaves7_emit (c : Dev nD) (t : Fin cfg0.N) (h : 25 ≤ t.val) :
    (dats m 0 c).leavesExact 7 t = owns (c : Thread nD τ) (stg7 t) fullShare (outLv m c t) := by
  unfold Dat.leavesExact; rw [live7_emit t h, after7]

/-! ## The body obligation's two sides at a point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.KernelIdeal.Hand

end
-- ==== Proof.IdealFillStep.lean ====
/-
  One more block in place. If the blocks of the earlier points of phase 0 are in place in what the second scratch holds,
  and point t < 25 writes its own block over rows [400 t, 400 t + 400), then the blocks of points 0 … t are in place
  afterwards: a row of the new slice reads the slice, and a row of an earlier block lies above the slice and reads what
  was there before.
-/
import proofs.«105579_g49082886258796_cont_8to1c4_279_12_alg».proof.Proof.IdealData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable {F : FTy → Type} [FloatOps F]

variable (m : (ℓ : Loc nD τ sig) → Buf (Elt F) ℓ)

/-- One store over a whole buffer (the rectangle at zero offsets of the buffer's own extents), read back, is what was stored. -/
theorem read_whole_piece {κ : Kind} {sp : Space} {S : Shape} {e : EltTy} (v : View sig κ sp S e) (f : v.ty.Contents (Elt F))
    {off : Fin S.rank → Nat} (hoff : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hoff inb y⟩)).trans
    (View.canon_unit_zero hoff inb w)

theorem HMInv_step (c : Dev nD) (t : Fin cfg0.N) (h1 : t.val < 25) (d : Vec F S10000x64 .f32)
    (hd : t.val ≠ 0 → HMInv m c (t.val - 1) d)
    (inb : ∀ a : Fin 2, (k0_off1 (grid0.coords t)) a + S400x64.size a ≤ (![10000, 64] : Fin 2 → ℕ) a)
    (w : Vec F S400x64 .f32) (hw : w = hmBlk m c t)
    (f : scrHM.view.ty.Contents (Elt F)) (hf : scrHM.view.read (Elt F) f = d) :
    HMInv m c t.val (scrHM.view.read (Elt F) (scrHM.view.writes (Elt F) f
      [(⟨Rect.unit (s := S10000x64) (k0_off1 (grid0.coords t)) S400x64.size inb, w⟩ : View.Piece (Elt F) S10000x64 .f32)])) := by
  intro t' ht' h25 y j hj0 hj1
  have hy0 := idx2_lt0 y
  by_cases htt : t'.val = t.val
  · obtain rfl : t' = t := Fin.ext htt
    rw [View.read_writes_cons_rows_of_mem scrHM.view f inb w [] j y (fillOff t' h1) hj0 hj1, hw]
  · have hlt : t'.val < t.val := by omega
    rw [View.read_writes_cons_rows_of_not_mem scrHM.view f inb w [] j (fillOff t h1) (rfl : S400x64.size (0 : Fin 2) = 400) (Or.inl (by omega))]
    rw [View.writes_nil, hf]
    exact hd (by omega) t' (by omega) h25 y j hj0 hj1

end Cert.KernelIdeal.Hand

end
-- ==== Proof.IdealBodyFirst.lean ====
/-
  The body obligation at the first grid point. The launch hands over both scratch buffers at anything; the run stores
  x · W1 over the whole first scratch and block 0 into the second, so afterwards the first scratch holds x · W1 and
  block 0 of the second is in place. The output windows are idle.
-/
import proofs.«105579_g49082886258796_cont_8to1c4_279_12_alg».proof.Proof.IdealFillStep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

set_option maxHeartbeats 1600000 in
theorem sound_first (c : Dev nD) (t : Fin cfg0.N) (hz : t.val = 0) :
    bodyPre m c t ⊢ wp frame (wpE (defs₀ (F := F)) Variants.none c none) Set.univ (bodyAt0 t) (fun _ => bodyPost m c t) := by
  obtain rfl : t = pt0 := Fin.ext hz
  unfold bodyPre bodyPost bodyAt0
  simp only [before0, before1, before2, before3, before4, before5]
  rw [show (dats m 0 c).owesAt () (pt0 : Fin cfg0.N).succ = (dats m 0 c).owesAt () (pt0 : Fin cfg0.N).castSucc from rfl]
  rw [inv_succ, regionInv_succ, inv_castSucc, regionInv_zero m c _ _ rfl, regionRest_eq]
  have h1 : (pt0 : Fin cfg0.N).val < 25 := by show 0 < 25; omega
  rw [leaves0, leaves1, leaves2, leaves3, leaves4, leaves5, leaves6_fill m c pt0 h1, leaves7_fill m c pt0 h1]
  have hc0 : atStart (grid0.coords pt0) := (atStart_iff pt0).mpr rfl
  have hc1 : inFill (grid0.coords pt0) := (inFill_iff pt0).mpr h1
  have hc2 : ¬inEmit (grid0.coords pt0) := fun h => by have := (inEmit_iff pt0).mp h; omega
  iintro ⟨⟨⟨⟨%dx, HX⟩, ⟨%d, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords pt0) _ _ _ _ _ _ _ _ _ _ _ _ _ _ _ _ _ _ _ _ hc0 hc1 hc2 (iblk m c 0 pt0) (iblk m c 1 pt0) (iblk m c 2 pt0) (iblk m c 3 pt0) (iblk m c 4 pt0) (iblk m c 5 pt0) ((dats m 0 c).before 6 pt0 d6) ((dats m 0 c).before 7 pt0 d7) d).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexists _; iexact HX
  isplitl [HH]; · iexact HH
  iintro ⟨H0, H1, H2, H3, H4, H5, H6, H7, ⟨%fx, HX⟩, HH⟩
  isplitl [HX HH Hg]
  · isplitl [HX HH]
    · isplitl [HX]
      · rw [runFirst_found_xw]
        unfold owns; iexists _; isplitr
        swap; · iexact HX
        ipureintro
        exact read_whole_piece _ _ zeroOff _ _
      rw [runFirst_found_hm]
      iexists _
      isplitr
      swap
      · unfold owns; iexists _; isplitr
        swap; · iexact HH
        ipureintro; rfl
      ipureintro
      exact HMInv_step m c pt0 h1 d (fun h => absurd rfl h) _ _ rfl _ (Memref.IsWhole.read_unread _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.KernelIdeal.Hand

end
-- ==== Proof.IdealBodyFill.lean ====
/-
  The body obligation at a point of phase 0 other than the first (1 ≤ t < 25). The invariant hands over the first
  scratch at x · W1 and the second at contents whose earlier blocks are in place; the run stores this point's block
  into the second scratch, so afterwards the blocks of points 0 … t are in place. The output windows are idle: their
  buffers go in and come back at what they held.
-/
import proofs.«105579_g49082886258796_cont_8to1c4_279_12_alg».proof.Proof.IdealFillStep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

set_option maxHeartbeats 1600000 in
theorem sound_fill (c : Dev nD) (t : Fin cfg0.N) (h0 : t.val ≠ 0) (h1 : t.val < 25) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [inv_succ, regionInv_succ, inv_castSucc, regionInv_pos m c _ _ h0]
  rw [leaves0, leaves1, leaves2, leaves3, leaves4, leaves5, leaves6_fill m c t h1, leaves7_fill m c t h1]
  have hc0 : ¬atStart (grid0.coords t) := fun h => h0 ((atStart_iff t).mp h)
  have hc1 : inFill (grid0.coords t) := (inFill_iff t).mpr h1
  have hc2 : ¬inEmit (grid0.coords t) := fun h => by have := (inEmit_iff t).mp h; omega
  iintro ⟨⟨⟨HX, ⟨%d, %hd, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFill c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) ((dats m 0 c).before 6 t d6) ((dats m 0 c).before 7 t d7) (xwOf m c) d).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  isplitl [HH]; · iexact HH
  iintro ⟨H0, H1, H2, H3, H4, H5, H6, H7, HX, HH⟩
  isplitl [HX HH Hg]
  · isplitl [HX HH]
    · isplitl [HX]; · iexact HX
      rw [runFill_found]
      iexists _
      isplitr
      swap
      · unfold owns; iexists _; isplitr
        swap; · iexact HH
        ipureintro; rfl
      ipureintro
      exact HMInv_step m c t h1 d (fun _ => hd) _ _ rfl _ (Memref.IsWhole.read_unread _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.KernelIdeal.Hand

end
-- ==== Proof.IdealBodyEmit.lean ====
/-
  The body obligation at a point of phase 1 (25 ≤ t). All 25 blocks of the second scratch are in place, so it holds
  the one array the invariant's blocks determine; the run reads it whole and leaves columns [0, 32) and [32, 64) of
  adj_block · scratch + [bmu | blv] in the two output buffers. Both scratch buffers come back as they were.
-/
import proofs.«105579_g49082886258796_cont_8to1c4_279_12_alg».proof.Proof.IdealFillStep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

set_option maxHeartbeats 1600000 in
theorem sound_emit (c : Dev nD) (t : Fin cfg0.N) (h2 : 25 ≤ t.val) :
    bodyPre m c t ⊢ wp frame (wpE (defs₀ (F := F)) Variants.none c none) Set.univ (bodyAt0 t) (fun _ => bodyPost m c t) := by
  have h0 : t.val ≠ 0 := by omega
  unfold bodyPre bodyPost bodyAt0
  simp only [before0, before1, before2, before3, before4, before5]
  rw [show (dats m 0 c).owesAt () t.succ = (dats m 0 c).owesAt () t.castSucc from rfl]
  rw [inv_succ, regionInv_succ, inv_castSucc, regionInv_pos m c _ _ h0]
  rw [leaves0, leaves1, leaves2, leaves3, leaves4, leaves5, leaves6_emit m c t h2, leaves7_emit m c t h2]
  have hc0 : ¬atStart (grid0.coords t) := fun h => h0 ((atStart_iff t).mp h)
  have hc1 : ¬inFill (grid0.coords t) := fun h => by have := (inFill_iff t).mp h; omega
  have hc2 : inEmit (grid0.coords t) := (inEmit_iff t).mpr h2
  iintro ⟨⟨⟨HX, ⟨%d, %hd, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl : d = hmArr m c := HMInv_full m c (t.val - 1) (by omega) d hd
  iapply ((runEmit c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (xwOf m c) (hmArr m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HX]; · iexact HX
  isplitl [HH]; · iexact HH
  iintro ⟨H0, H1, H2, H3, H4, H5, ⟨%f6, H6⟩, ⟨%f7, H7⟩, HX, HH⟩
  isplitl [HX HH Hg]
  · isplitl [HX HH]
    · isplitl [HX]; · iexact HX
      iexists _
      isplitr
      swap; · iexact HH
      ipureintro
      exact HMInv_mono m c (t.val - 1) t.val (by omega) _ hd
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [runEmit_found_6]
    unfold owns; iexists _; isplitr
    swap; · iexact H6
    ipureintro
    exact read_whole_piece _ _ zeroOff _ _
  rw [runEmit_found_7]
  unfold owns; iexists _; isplitr
  swap; · iexact H7
  ipureintro
  exact read_whole_piece _ _ zeroOff _ _

end Cert.KernelIdeal.Hand

end
-- ==== Proof.IdealFrame.lean ====
/-
  The frame of the one pallas_call, at any float instance: the body obligation at every grid point (the first point, the
  later points of phase 0, the points of phase 1), what the launch hands over as the invariant before point 0, the
  invariant after the last point giving the scratch buffers back, and with these the run of @main: it terminates, nothing
  faults, every output array ends at what the proof data's write-backs leave, and every argument array ends unchanged.
-/
import proofs.«105579_g49082886258796_cont_8to1c4_279_12_alg».proof.Proof.IdealBodyFirst
import proofs.«105579_g49082886258796_cont_8to1c4_279_12_alg».proof.Proof.IdealBodyFill
import proofs.«105579_g49082886258796_cont_8to1c4_279_12_alg».proof.Proof.IdealBodyEmit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: by the point's phase. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  · by_cases h1 : t.val < 25
    · exact sound_fill m c t hz h1
    · exact sound_emit m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = regionInv m c 0 (Nat.zero_le _) from rfl, regionInv_zero m c 0 _ rfl]
  try exact Idealize.SL.BI.Entails.refl _

/-- After the last point the invariant gives both scratch buffers back at some contents. -/
theorem inv_out (c : Dev nD) : (dats m 0 c).Φ (Fin.last cfg0.N) ⊢ Pipeline.ΦA spec0 c := by
  rw [show (dats m 0 c).Φ (Fin.last cfg0.N) = regionInv m c (Fin.last cfg0.N).val (Nat.le_of_lt_succ (Fin.last cfg0.N).isLt) from rfl,
    regionInv_pos m c _ _ (by rw [Fin.val_last]; have : cfg0.N = 50 := N_0; omega), regionRest_eq]
  iintro ⟨⟨HX, ⟨%d, %hd, HH⟩⟩, Hg⟩
  isplitl [HX HH]
  · isplitl [HX]
    · iexists _; iexact HX
    iexists _; iexact HH
  iexact Hg

set_option backward.isDefEq.respectTransparency.types false in
/-- Every weakly fair execution of @main terminates, and in every final state each array of the pipeline holds what the
    proof data's write-backs leave and every other unscoped buffer what it held at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- In a final state of that run every argument array holds what it was launched with: a staged input's array is never
    written, and the other arguments bypass the region. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame claim's post: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Spec.lean ====
/-
  The encoder as one function of its arguments over the extended reals, index by index (no program is mentioned here):
    xw      = x · W1                                   [10000, 64]
    hidden  = max (adj · xw + b1, 0)                   [10000, 64]
    mu      = adj · (hidden · Wmu) + bmu               [10000, 32]
    logvar  = adj · (hidden · Wlv) + blv               [10000, 32]
  and the same two results as the kernel arranges them: one [10000, 64] product hidden · [Wmu | Wlv], one
  [10000, 64] aggregate adj · (…) + [bmu | blv], of which mu is columns [0, 32) and logvar columns [32, 64). The two
  arrangements agree because a column of the concatenated weights is a column of Wmu or of Wlv: no law of arithmetic
  is used beyond reading the concatenation at an index.
-/
import Idealize.ShloMosaic.PureOps.Ideal
import Idealize.ShloMosaic.Lib.ValueIdx

noncomputable section

namespace Cert.Spec

open Idealize.ShloMosaic Idealize.ShloMosaic.ValueIdx

/-- A matrix of extended reals with r rows and c columns; a vector of n. -/
abbrev Mat (r c : Nat) : Type := (⟨2, ![r, c]⟩ : Shape).Idx → EReal
abbrev Vc (n : Nat) : Type := (⟨1, ![n]⟩ : Shape).Idx → EReal

/-- x · W1. -/
def xw (x : Mat 10000 128) (w1 : Mat 128 64) : Mat 10000 64 := fun j =>
  ∑ k : Fin 128, x (ix2 (j 0) k) * w1 (ix2 k (j 1))

/-- max (adj · xw + b1, 0). -/
def hidden (adj : Mat 10000 10000) (xw : Mat 10000 64) (b1 : Vc 64) : Mat 10000 64 := fun j =>
  max (∑ k : Fin 10000, adj (ix2 (j 0) k) * xw (ix2 k (j 1)) + b1 (ix1 (j 1))) 0

/-- hidden · W for a [64, 32] weight. -/
def proj (h : Mat 10000 64) (w : Mat 64 32) : Mat 10000 32 := fun j =>
  ∑ k : Fin 64, h (ix2 (j 0) k) * w (ix2 k (j 1))

/-- adj · p + b for a [10000, 32] operand and a bias of 32. -/
def agg (adj : Mat 10000 10000) (p : Mat 10000 32) (b : Vc 32) : Mat 10000 32 := fun j =>
  ∑ k : Fin 10000, adj (ix2 (j 0) k) * p (ix2 k (j 1)) + b (ix1 (j 1))

/-- The two results. -/
def mu (x : Mat 10000 128) (adj : Mat 10000 10000) (w1 : Mat 128 64) (b1 : Vc 64) (wmu : Mat 64 32) (bmu : Vc 32) : Mat 10000 32 :=
  agg adj (proj (hidden adj (xw x w1) b1) wmu) bmu
def logvar (x : Mat 10000 128) (adj : Mat 10000 10000) (w1 : Mat 128 64) (b1 : Vc 64) (wlv : Mat 64 32) (blv : Vc 32) : Mat 10000 32 :=
  agg adj (proj (hidden adj (xw x w1) b1) wlv) blv

/-! ## The kernel's arrangement: 64 columns at once -/

/-- Column j of [Wmu | Wlv]. -/
def wcat (wmu wlv : Mat 64 32) : Mat 64 64 := fun j =>
  if h : (j 1).val < 32 then wmu (ix2 (j 0) ⟨(j 1).val, h⟩) else wlv (ix2 (j 0) ⟨(j 1).val - 32, by have := idx2_lt1 j; omega⟩)

/-- Entry j of [bmu | blv]. -/
def bcat (bmu blv : Vc 32) : Vc 64 := fun j =>
  if h : (j 0).val < 32 then bmu (ix1 ⟨(j 0).val, h⟩) else blv (ix1 ⟨(j 0).val - 32, by have : (j 0).val < 64 := (j 0).isLt; omega⟩)

/-- hidden · [Wmu | Wlv]. -/
def hm (h : Mat 10000 64) (wc : Mat 64 64) : Mat 10000 64 := fun j =>
  ∑ k : Fin 64, h (ix2 (j 0) k) * wc (ix2 k (j 1))

/-- adj · hm + [bmu | blv]. -/
def out (adj : Mat 10000 10000) (hm : Mat 10000 64) (bc : Vc 64) : Mat 10000 64 := fun j =>
  ∑ k : Fin 10000, adj (ix2 (j 0) k) * hm (ix2 k (j 1)) + bc (ix1 (j 1))

/-- Columns [0, 32) of the kernel's aggregate are mu … -/
theorem out_left (x : Mat 10000 128) (adj : Mat 10000 10000) (w1 : Mat 128 64) (b1 : Vc 64) (wmu wlv : Mat 64 32) (bmu blv : Vc 32)
    (r : Fin 10000) (q : Fin 32) :
    out adj (hm (hidden adj (xw x w1) b1) (wcat wmu wlv)) (bcat bmu blv) (ix2 r ⟨q.val, by omega⟩)
      = mu x adj w1 b1 wmu bmu (ix2 r q) := by
  have hq : q.val < 32 := q.isLt
  unfold out mu agg hm proj wcat bcat
  simp only [hq, dite_true]

/-- … and columns [32, 64) are logvar. -/
theorem out_right (x : Mat 10000 128) (adj : Mat 10000 10000) (w1 : Mat 128 64) (b1 : Vc 64) (wmu wlv : Mat 64 32) (bmu blv : Vc 32)
    (r : Fin 10000) (q : Fin 32) :
    out adj (hm (hidden adj (xw x w1) b1) (wcat wmu wlv)) (bcat bmu blv) (ix2 r ⟨q.val + 32, by omega⟩)
      = logvar x adj w1 b1 wlv blv (ix2 r q) := by
  have hq : ¬ (q.val + 32 < 32) := by omega
  unfold out logvar agg hm proj wcat bcat
  simp only [hq, dite_false, Nat.add_sub_cancel]

end Cert.Spec

end
-- ==== Proof.IdealPayload.lean ====
/-
  The body's payloads at the extended reals, read at one index: a matrix product into a zero accumulator is the plain
  sum of products over the contracted axis, the bias row is broadcast down the rows, the rectifier is max with zero,
  and the two output payloads are the left and right 32 columns of one [400, 64] aggregate.
-/
import proofs.«105579_g49082886258796_cont_8to1c4_279_12_alg».proof.Proof.Gen.KernelIdeal.Skeleton
import proofs.«105579_g49082886258796_cont_8to1c4_279_12_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen

/-! ### The product [10000, 128] · [128, 64]: its operand indices, axis by axis -/

/-- The left operand's row is the output's row. -/
theorem lhs_xw_0 (i : S10000x64.Idx) (c : dot_S10000x128_S128x64_S10000x64_1_0_0_1_n_n.contr.Idx) :
    (dot_S10000x128_S128x64_S10000x64_1_0_0_1_n_n.lhsIdx i c 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the contracted coordinate. -/
theorem lhs_xw_1 (i : S10000x64.Idx) (c : dot_S10000x128_S128x64_S10000x64_1_0_0_1_n_n.contr.Idx) :
    (dot_S10000x128_S128x64_S10000x64_1_0_0_1_n_n.lhsIdx i c 1).val = (c ⟨0, by decide⟩).val :=
  dot_S10000x128_S128x64_S10000x64_1_0_0_1_n_n.lhsIdx_val_of_single rfl i c
/-- The right operand's row is the contracted coordinate. -/
theorem rhs_xw_0 (i : S10000x64.Idx) (c : dot_S10000x128_S128x64_S10000x64_1_0_0_1_n_n.contr.Idx) :
    (dot_S10000x128_S128x64_S10000x64_1_0_0_1_n_n.rhsIdx i c 0).val = (c ⟨0, by decide⟩).val :=
  dot_S10000x128_S128x64_S10000x64_1_0_0_1_n_n.rhsIdx_val_of_single rfl i c
/-- The right operand's column is the output's column. -/
theorem rhs_xw_1 (i : S10000x64.Idx) (c : dot_S10000x128_S128x64_S10000x64_1_0_0_1_n_n.contr.Idx) :
    (dot_S10000x128_S128x64_S10000x64_1_0_0_1_n_n.rhsIdx i c 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Into a zero accumulator, entry (p, q) of the product is the sum over k of l[p, k] · r[k, q]. -/
theorem matmul_xw_apply (l : FVec Ideal S10000x128 .f32) (r : FVec Ideal S128x64 .f32) (p : Fin 10000) (q : Fin 64) :
    matmul dot_S10000x128_S128x64_S10000x64_1_0_0_1_n_n none l r (constant (F := Ideal) S10000x64 .f32 0x00000000#32) (ix2 p q)
      = ∑ k : Fin 128, l (ix2 p k) * r (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_xw_0 _ _).trans hk
    | ⟨1, _⟩ => exact rhs_xw_1 _ _)
  rw [el, er]

/-! ### The product [400, 10000] · [10000, 64]: its operand indices, axis by axis -/

/-- The left operand's row is the output's row. -/
theorem lhs_agg_0 (i : S400x64.Idx) (c : dot_S400x10000_S10000x64_S400x64_1_0_0_1_n_n.contr.Idx) :
    (dot_S400x10000_S10000x64_S400x64_1_0_0_1_n_n.lhsIdx i c 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
/-- The left operand's column is the contracted coordinate. -/
theorem lhs_agg_1 (i : S400x64.Idx) (c : dot_S400x10000_S10000x64_S400x64_1_0_0_1_n_n.contr.Idx) :
    (dot_S400x10000_S10000x64_S400x64_1_0_0_1_n_n.lhsIdx i c 1).val = (c ⟨0, by decide⟩).val :=
  dot_S400x10000_S10000x64_S400x64_1_0_0_1_n_n.lhsIdx_val_of_single rfl i c
/-- The right operand's row is the contracted coordinate. -/
theorem rhs_agg_0 (i : S400x64.Idx) (c : dot_S400x10000_S10000x64_S400x64_1_0_0_1_n_n.contr.Idx) :
    (dot_S400x10000_S10000x64_S400x64_1_0_0_1_n_n.rhsIdx i c 0).val = (c ⟨0, by decide⟩).val :=
  dot_S400x10000_S10000x64_S400x64_1_0_0_1_n_n.rhsIdx_val_of_single rfl i c
/-- The right operand's column is the output's column. -/
theorem rhs_agg_1 (i : S400x64.Idx) (c : dot_S400x10000_S10000x64_S400x64_1_0_0_1_n_n.contr.Idx) :
    (dot_S400x10000_S10000x64_S400x64_1_0_0_1_n_n.rhsIdx i c 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- Into a zero accumulator, entry (p, q) of the product is the sum over k of l[p, k] · r[k, q]. -/
theorem matmul_agg_apply (l : FVec Ideal S400x10000 .f32) (r : FVec Ideal S10000x64 .f32) (p : Fin 400) (q : Fin 64) :
    matmul dot_S400x10000_S10000x64_S400x64_1_0_0_1_n_n none l r (constant (F := Ideal) S400x64 .f32 0x00000000#32) (ix2 p q)
      = ∑ k : Fin 10000, l (ix2 p k) * r (ix2 k q) := by
  simp only [matmul]
  rw [Ideal.matmul_constant_zero_apply, ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p q) ((contrEquiv1 dot_S400x10000_S10000x64_S400x64_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x64_S400x64_1_0_0_1_n_n.rhsIdx (ix2 p q) ((contrEquiv1 dot_S400x10000_S10000x64_S400x64_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-! ### The product [400, 64] · [64, 64]: its operand indices, axis by axis -/

/-- The left operand's row is the output's row. -/
theorem lhs_prj_0 (i : S400x64.Idx) (c : dot_S400x64_S64x64_S400x64_1_0_0_1_n_n.contr.Idx) :
    (dot_S400x64_S64x64_S400x64_1_0_0_1_n_n.lhsIdx i c 0).val = (i 0).val := by
  unfold DotDims.lhsIdx
  rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
  rfl
/-- The left operand's column is the contracted coordinate. -/
theorem lhs_prj_1 (i : S400x64.Idx) (c : dot_S400x64_S64x64_S400x64_1_0_0_1_n_n.contr.Idx) :
    (dot_S400x64_S64x64_S400x64_1_0_0_1_n_n.lhsIdx i c 1).val = (c ⟨0, by decide⟩).val :=
  dot_S400x64_S64x64_S400x64_1_0_0_1_n_n.lhsIdx_val_of_single rfl i c
/-- The right operand's row is the contracted coordinate. -/
theorem rhs_prj_0 (i : S400x64.Idx) (c : dot_S400x64_S64x64_S400x64_1_0_0_1_n_n.contr.Idx) :
    (dot_S400x64_S64x64_S400x64_1_0_0_1_n_n.rhsIdx i c 0).val = (c ⟨0, by decide⟩).val :=
  dot_S400x64_S64x64_S400x64_1_0_0_1_n_n.rhsIdx_val_of_single rfl i c
/-- The right operand's column is the output's column. -/
theorem rhs_prj_1 (i : S400x64.Idx) (c : dot_S400x64_S64x64_S400x64_1_0_0_1_n_n.contr.Idx) :
    (dot_S400x64_S64x64_S400x64_1_0_0_1_n_n.rhsIdx i c 1).val = (i 1).val := by
  unfold DotDims.rhsIdx
  rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
  rfl

/-- Into a zero accumulator, entry (p, q) of the product is the sum over k of l[p, k] · r[k, q]. -/
theorem matmul_prj_apply (l : FVec Ideal S400x64 .f32) (r : FVec Ideal S64x64 .f32) (p : Fin 400) (q : Fin 64) :
    matmul dot_S400x64_S64x64_S400x64_1_0_0_1_n_n none l r (constant (F := Ideal) S400x64 .f32 0x00000000#32) (ix2 p q)
      = ∑ k : Fin 64, l (ix2 p k) * r (ix2 k q) := by
  simp only [matmul]
  rw [Ideal.matmul_constant_zero_apply, ← Equiv.sum_comp (contrEquiv1 dot_S400x64_S64x64_S400x64_1_0_0_1_n_n 64 rfl rfl).symm]
  refine Finset.sum_congr rfl fun k _ => ?_
  have hk := contrEquiv1_symm_val dot_S400x64_S64x64_S400x64_1_0_0_1_n_n 64 rfl rfl k
  have el : dot_S400x64_S64x64_S400x64_1_0_0_1_n_n.lhsIdx (ix2 p q) ((contrEquiv1 dot_S400x64_S64x64_S400x64_1_0_0_1_n_n 64 rfl rfl).symm k) = ix2 p k := funext fun a => Fin.ext (by
    match a with
    | ⟨0, _⟩ => exact lhs_prj_0 _ _
    | ⟨1, _⟩ => exact (lhs_prj_1 _ _).trans hk)
  have er : dot_S400x64_S64x64_S400x64_1_0_0_1_n_n.rhsIdx (ix2 p q) ((contrEquiv1 dot_S400x64_S64x64_S400x64_1_0_0_1_n_n 64 rfl rfl).symm k) = ix2 k q := funext fun a => Fin.ext (by
    match a with
    | ⟨0, _⟩ => exact (rhs_prj_0 _ _).trans hk
    | ⟨1, _⟩ => exact rhs_prj_1 _ _)
  rw [el, er]

/-! ### The bias row and the rectified aggregate -/

/-- The bias, one row of 64, broadcast down 400 rows: entry (p, q) is b[0, q]. -/
theorem bias_apply (b : FVec Ideal S1x64 .f32) (p : Fin 400) (q : Fin 64) :
    broadcastTo S400x64 (shapeCast S1x64 b shapeCasts_S1x64_S1x64) broadcasts_S1x64_S400x64 (ix2 p q) = b (ix2 (0 : Fin 1) q) := by
  rw [shapeCast_self]
  exact broadcastTo_1b_ab_apply b broadcasts_S1x64_S400x64 p q

/-- max (a · y + b, 0) at (p, h). -/
theorem hidden_apply (a : FVec Ideal S400x10000 .f32) (y : FVec Ideal S10000x64 .f32) (b : FVec Ideal S1x64 .f32)
    (p : Fin 400) (h : Fin 64) :
    maximumf (addf (matmul dot_S400x10000_S10000x64_S400x64_1_0_0_1_n_n none a y (constant (F := Ideal) S400x64 .f32 0x00000000#32))
        (broadcastTo S400x64 (shapeCast S1x64 b shapeCasts_S1x64_S1x64) broadcasts_S1x64_S400x64))
      (broadcast S400x64 (Scalar.ofBits (F := Ideal) .f32 0x00000000#32)) (ix2 p h)
      = max (∑ k : Fin 10000, a (ix2 p k) * y (ix2 k h) + b (ix2 (0 : Fin 1) h)) 0 :=
  congrArg₂ max (congrArg₂ (· + ·) (matmul_agg_apply a y p h) (bias_apply b p h)) Ideal.ofBits_zero_f32

/-! ### The five payloads -/

/-- x · W1: entry (p, h) is the sum over k of x[p, k] · W1[k, h]. -/
theorem pay1_eq (x : Vec Ideal S10000x128 .f32) (w : Vec Ideal S128x64 .f32) :
    k0_pay1 (F := Ideal) x w = Cert.Spec.xw x w := by
  funext j
  obtain ⟨p, q, rfl⟩ : ∃ (p : Fin 10000) (q : Fin 64), j = ix2 p q := ⟨j 0, j 1, eq_ix2 j⟩
  unfold k0_pay1
  refine (congrFun (shapeCast_self _ shapeCasts_S10000x64_S10000x64) (ix2 p q)).trans ?_
  exact matmul_xw_apply x w p q

/-- One block of relu(adj · xw + b1) · Wcat at a local index (y 0, y 1). -/
theorem pay2_apply (a : Vec Ideal S400x10000 .f32) (xw : Vec Ideal S10000x64 .f32) (b : Vec Ideal S1x64 .f32) (wc : Vec Ideal S64x64 .f32)
    (p : Fin 400) (q : Fin 64) :
    k0_pay2 (F := Ideal) a xw b wc (ix2 p q)
      = ∑ h : Fin 64, max (∑ k : Fin 10000, a (ix2 p k) * xw (ix2 k h) + b (ix2 (0 : Fin 1) h)) 0 * wc (ix2 h q) := by
  unfold k0_pay2
  refine (congrFun (shapeCast_self _ shapeCasts_S400x64_S400x64) (ix2 p q)).trans ?_
  rw [shapeCast_self wc shapeCasts_S64x64_S64x64]
  refine (matmul_prj_apply _ wc p q).trans ?_
  exact Finset.sum_congr rfl fun h _ => congrArg (· * wc (ix2 h q)) (hidden_apply a xw b p h)

/-- One block of adj · hm + bcat at a local index. -/
theorem pay3_apply (a : Vec Ideal S400x10000 .f32) (hm : Vec Ideal S10000x64 .f32) (bc : Vec Ideal S1x64 .f32)
    (p : Fin 400) (q : Fin 64) :
    k0_pay3 (F := Ideal) a hm bc (ix2 p q) = ∑ k : Fin 10000, a (ix2 p k) * hm (ix2 k q) + bc (ix2 (0 : Fin 1) q) := by
  unfold k0_pay3
  exact congrArg₂ (· + ·) (matmul_agg_apply a hm p q) (bias_apply bc p q)

/-- The first output's payload is columns [0, 32) of that aggregate … -/
theorem pay4_apply (a : Vec Ideal S400x10000 .f32) (hm : Vec Ideal S10000x64 .f32) (bc : Vec Ideal S1x64 .f32)
    (p : Fin 400) (q : Fin 32) :
    k0_pay4 (F := Ideal) a hm bc (ix2 p q) = k0_pay3 (F := Ideal) a hm bc (ix2 p (⟨q.val, by omega⟩ : Fin 64)) := by
  unfold k0_pay4
  exact slice2_axis1_apply 0 (k0_pay3 (F := Ideal) a hm bc) slices_S400x64_o0_0_S400x32 p q _ (Nat.zero_add _).symm

/-- … and the second's columns [32, 64). -/
theorem pay5_apply (a : Vec Ideal S400x10000 .f32) (hm : Vec Ideal S10000x64 .f32) (bc : Vec Ideal S1x64 .f32)
    (p : Fin 400) (q : Fin 32) :
    k0_pay5 (F := Ideal) a hm bc (ix2 p q) = k0_pay3 (F := Ideal) a hm bc (ix2 p (⟨q.val + 32, by omega⟩ : Fin 64)) := by
  unfold k0_pay5
  exact slice2_axis1_apply 32 (k0_pay3 (F := Ideal) a hm bc) slices_S400x64_o0_32_S400x32 p q _ (Nat.add_comm _ _)

end Cert.KernelIdeal.Hand

end
-- ==== Proof.IdealBlocks.lean ====
/-
  What each input window's block holds, read off the argument arrays. The feature matrix, the first weight matrix and
  the three small operands are staged whole (their index maps are constant), so their block at every point is the
  whole array; the adjacency window's block at point t is rows [400 (t % 25), 400 (t % 25) + 400). Three of the staged
  operands are made by @main before the call: b1 as a [1, 64] row, [Wmu | Wlv] by concatenation along the columns, and
  [bmu | blv] concatenated and then laid out as a [1, 64] row.
-/
import proofs.«105579_g49082886258796_cont_8to1c4_279_12_alg».proof.Proof.IdealPoints
import proofs.«105579_g49082886258796_cont_8to1c4_279_12_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The feature window's block is the whole feature matrix. -/
theorem blk_x (c : Dev nD) (t : Fin cfg0.N) :
    (iblk m c 0 t : Vec Ideal S10000x128 .f32) = m ((c : Thread nD τ).loc main_arg0) := by
  have hi : win0_0.index t = ![0, 0] := (by decide +kernel : ∀ t : Fin grid0.N, win0_0.index t = ![0, 0]) t
  funext j
  unfold iblk
  rw [View.read_apply]
  show V m c main_arg0 (((cfg0.win 0).blk t).view.emb j) = m ((c : Thread nD τ).loc main_arg0) j
  rw [V_main_arg0]
  congr 1
  funext a
  apply Fin.ext
  match a with
  | ⟨0, _⟩ =>
    show win0_0.index t 0 * 10000 + 1 * (j 0).val = (j 0).val
    rw [hi]; show 0 * 10000 + 1 * (j 0).val = (j 0).val; omega
  | ⟨1, _⟩ =>
    show win0_0.index t 1 * 128 + 1 * (j 1).val = (j 1).val
    rw [hi]; show 0 * 128 + 1 * (j 1).val = (j 1).val; omega

/-- The first weight window's block is the whole W1. -/
theorem blk_w1 (c : Dev nD) (t : Fin cfg0.N) :
    (iblk m c 2 t : Vec Ideal S128x64 .f32) = m ((c : Thread nD τ).loc main_arg2) := by
  have hi : win0_2.index t = ![0, 0] := (by decide +kernel : ∀ t : Fin grid0.N, win0_2.index t = ![0, 0]) t
  funext j
  unfold iblk
  rw [View.read_apply]
  show V m c main_arg2 (((cfg0.win 2).blk t).view.emb j) = m ((c : Thread nD τ).loc main_arg2) j
  rw [V_main_arg2]
  congr 1
  funext a
  apply Fin.ext
  match a with
  | ⟨0, _⟩ =>
    show win0_2.index t 0 * 128 + 1 * (j 0).val = (j 0).val
    rw [hi]; show 0 * 128 + 1 * (j 0).val = (j 0).val; omega
  | ⟨1, _⟩ =>
    show win0_2.index t 1 * 64 + 1 * (j 1).val = (j 1).val
    rw [hi]; show 0 * 64 + 1 * (j 1).val = (j 1).val; omega

/-- The adjacency window's block at point t is rows [400 (t % 25), 400 (t % 25) + 400). -/
theorem blk_adj (c : Dev nD) (t : Fin cfg0.N) (p : Fin 400) (k : Fin 10000) :
    (iblk m c 1 t : Vec Ideal S400x10000 .f32) (ix2 p k)
      = m ((c : Thread nD τ).loc main_arg1) (ix2 (⟨400 * (t.val % 25) + p.val, by omega⟩ : Fin 10000) k) := by
  have hi : win0_1.index t = ![t.val % 25, 0] := index1 t
  unfold iblk
  rw [View.read_apply]
  show V m c main_arg1 (((cfg0.win 1).blk t).view.emb (ix2 p k))
    = m ((c : Thread nD τ).loc main_arg1) (ix2 (⟨400 * (t.val % 25) + p.val, by omega⟩ : Fin 10000) k)
  rw [V_main_arg1]
  congr 1
  funext a
  apply Fin.ext
  match a with
  | ⟨0, _⟩ =>
    show win0_1.index t 0 * 400 + 1 * p.val = 400 * (t.val % 25) + p.val
    rw [hi]; show (t.val % 25) * 400 + 1 * p.val = 400 * (t.val % 25) + p.val; omega
  | ⟨1, _⟩ =>
    show win0_1.index t 1 * 10000 + 1 * k.val = k.val
    rw [hi]; show 0 * 10000 + 1 * k.val = k.val; omega

/-- The bias row b1 as staged: entry (0, h) is b1[h]. -/
theorem blk_b1 (c : Dev nD) (t : Fin cfg0.N) (h : Fin 64) :
    (iblk m c 3 t : Vec Ideal S1x64 .f32) (ix2 (0 : Fin 1) h) = m ((c : Thread nD τ).loc main_arg3) (ix1 h) := by
  have hi : win0_3.index t = ![0, 0] := (by decide +kernel : ∀ t : Fin grid0.N, win0_3.index t = ![0, 0]) t
  have e : (V m c main_v3 : S1x64.Idx → EReal)
      = broadcastInDim S1x64 ![1] Facts₀.bcast_S64_S1x64_1 (m ((c : Thread nD τ).loc main_arg3)) := by
    dsimp only [Gen.V, Gen.hostOps0]; after_results
  have hj : ((cfg0.win 3).blk t).view.emb (ix2 (0 : Fin 1) h) = (ix2 (0 : Fin 1) h : S1x64.Idx) := by
    funext a
    apply Fin.ext
    match a with
    | ⟨0, _⟩ =>
      show win0_3.index t 0 * 1 + 1 * (0 : Fin 1).val = (0 : Fin 1).val
      rw [hi]; rfl
    | ⟨1, _⟩ =>
      show win0_3.index t 1 * 64 + 1 * h.val = h.val
      rw [hi]; show 0 * 64 + 1 * h.val = h.val; omega
  unfold iblk
  rw [View.read_apply]
  show V m c main_v3 (((cfg0.win 3).blk t).view.emb (ix2 (0 : Fin 1) h)) = m ((c : Thread nD τ).loc main_arg3) (ix1 h)
  rw [hj, e]
  exact broadcastInDim_apply _ _ _ (ix2 (0 : Fin 1) h) (ix1 h) (fun a => match a with | ⟨0, _⟩ => rfl)

/-- The concatenated weights as staged: [Wmu | Wlv]. -/
theorem blk_wcat (c : Dev nD) (t : Fin cfg0.N) :
    (iblk m c 4 t : Vec Ideal S64x64 .f32) = Cert.Spec.wcat (m ((c : Thread nD τ).loc main_arg4)) (m ((c : Thread nD τ).loc main_arg6)) := by
  have hi : win0_4.index t = ![0, 0] := (by decide +kernel : ∀ t : Fin grid0.N, win0_4.index t = ![0, 0]) t
  have e : (V m c main_v0 : S64x64.Idx → EReal)
      = concatenate S64x64 1 [⟨S64x32, m ((c : Thread nD τ).loc main_arg4)⟩, ⟨S64x32, m ((c : Thread nD τ).loc main_arg6)⟩]
          Facts₀.concatenates_S64x32_S64x32_S64x64_d1 := by
    dsimp only [Gen.V, Gen.hostOps0]; after_results
  refine funext fun (j : S64x64.Idx) => ?_
  have hj : ((cfg0.win 4).blk t).view.emb j = j := by
    funext a
    apply Fin.ext
    match a with
    | ⟨0, _⟩ =>
      show win0_4.index t 0 * 64 + 1 * (j 0).val = (j 0).val
      rw [hi]; show 0 * 64 + 1 * (j 0).val = (j 0).val; omega
    | ⟨1, _⟩ =>
      show win0_4.index t 1 * 64 + 1 * (j 1).val = (j 1).val
      rw [hi]; show 0 * 64 + 1 * (j 1).val = (j 1).val; omega
  unfold iblk
  rw [View.read_apply]
  show V m c main_v0 (((cfg0.win 4).blk t).view.emb j) = _
  rw [hj, e]
  unfold Cert.Spec.wcat
  by_cases hlt : (j 1).val < 32
  · rw [dif_pos hlt]
    exact concatenate_pair_apply_left (t := S64x64) (s₁ := S64x32) (s₂ := S64x32) 1 _ _ _ j rfl (ix2 (j 0) ⟨(j 1).val, hlt⟩)
      (fun b => match b with | ⟨0, _⟩ => rfl | ⟨1, _⟩ => rfl)
  · rw [dif_neg hlt]
    have h64 : (j 1).val < 64 := idx2_lt1 j
    exact concatenate_pair_apply_right (t := S64x64) (s₁ := S64x32) (s₂ := S64x32) 1 _ _ _ j rfl rfl (ix2 (j 0) ⟨(j 1).val - 32, by omega⟩)
      (fun b hb => match b, hb with | ⟨0, _⟩, _ => rfl | ⟨1, _⟩, hb => absurd rfl hb)
      (by show (j 1).val - 32 + 32 = (j 1).val; omega)

/-- The concatenated bias row as staged: entry (0, q) is [bmu | blv][q]. -/
theorem blk_bcat (c : Dev nD) (t : Fin cfg0.N) (q : Fin 64) :
    (iblk m c 5 t : Vec Ideal S1x64 .f32) (ix2 (0 : Fin 1) q)
      = Cert.Spec.bcat (m ((c : Thread nD τ).loc main_arg5)) (m ((c : Thread nD τ).loc main_arg7)) (ix1 q) := by
  have hi : win0_5.index t = ![0, 0] := (by decide +kernel : ∀ t : Fin grid0.N, win0_5.index t = ![0, 0]) t
  have e : (V m c main_v2 : S1x64.Idx → EReal)
      = broadcastInDim S1x64 ![1] Facts₀.bcast_S64_S1x64_1
          (concatenate S64 0 [⟨S32, m ((c : Thread nD τ).loc main_arg5)⟩, ⟨S32, m ((c : Thread nD τ).loc main_arg7)⟩]
            Facts₀.concatenates_S32_S32_S64_d0) := by
    dsimp only [Gen.V, Gen.hostOps0]; after_results
  have hj : ((cfg0.win 5).blk t).view.emb (ix2 (0 : Fin 1) q) = (ix2 (0 : Fin 1) q : S1x64.Idx) := by
    funext a
    apply Fin.ext
    match a with
    | ⟨0, _⟩ =>
      show win0_5.index t 0 * 1 + 1 * (0 : Fin 1).val = (0 : Fin 1).val
      rw [hi]; rfl
    | ⟨1, _⟩ =>
      show win0_5.index t 1 * 64 + 1 * q.val = q.val
      rw [hi]; show 0 * 64 + 1 * q.val = q.val; omega
  unfold iblk
  rw [View.read_apply]
  show V m c main_v2 (((cfg0.win 5).blk t).view.emb (ix2 (0 : Fin 1) q)) = _
  rw [hj, e]
  refine (broadcastInDim_apply _ _ _ (ix2 (0 : Fin 1) q) (ix1 q) (fun a => match a with | ⟨0, _⟩ => rfl)).trans ?_
  unfold Cert.Spec.bcat
  by_cases hlt : q.val < 32
  · rw [dif_pos (show ((ix1 q : S64.Idx) 0).val < 32 from hlt)]
    exact concatenate_pair_apply_left (t := S64) (s₁ := S32) (s₂ := S32) 0 _ _ _ (ix1 q) rfl (ix1 ⟨q.val, hlt⟩)
      (fun b => match b with | ⟨0, _⟩ => rfl)
  · rw [dif_neg (show ¬ ((ix1 q : S64.Idx) 0).val < 32 from hlt)]
    have h64 : q.val < 64 := q.isLt
    exact concatenate_pair_apply_right (t := S64) (s₁ := S32) (s₂ := S32) 0 _ _ _ (ix1 q) rfl rfl (ix1 ⟨q.val - 32, by omega⟩)
      (fun b hb => match b, hb with | ⟨0, _⟩, hb => absurd rfl hb)
      (by show q.val - 32 + 32 = q.val; omega)

end Cert.KernelIdeal.Hand

end
-- ==== Proof.IdealValue.lean ====
/-
  The two output arrays after the run are the encoder's two results.
  The first scratch holds x · W1; row 400 t + p of the second scratch is row p of the block point t of phase 0 stored,
  which is row 400 t + p of relu(adj · (x · W1) + b1) · [Wmu | Wlv], so after phase 0 the second scratch is that whole
  product. A point t of phase 1 leaves in the two output buffers columns [0, 32) and [32, 64) of rows
  [400 (t - 25), 400 (t - 25) + 400) of adj · (that product) + [bmu | blv], which are the same rows of mu and of logvar.
  Those 25 blocks are written back at the points of phase 1 and tile the 10000 rows (row r lies in the block of point
  r / 400 + 25), so each output array ends holding its result at every index.
-/
import proofs.«105579_g49082886258796_cont_8to1c4_279_12_alg».proof.Proof.IdealData
import proofs.«105579_g49082886258796_cont_8to1c4_279_12_alg».proof.Proof.IdealPayload
import proofs.«105579_g49082886258796_cont_8to1c4_279_12_alg».proof.Proof.IdealBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The encoder's two results as functions of the arrays core c was launched with. -/
abbrev muOf (c : Dev nD) : S10000x32.Idx → EReal :=
  Cert.Spec.mu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev lvOf (c : Dev nD) : S10000x32.Idx → EReal :=
  Cert.Spec.logvar (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))

/-! ## The encoder's intermediate arrays, read at an index -/

/-- Entry (r, q) of hidden · [Wmu | Wlv] is the sum over the 64 hidden columns. -/
theorem spec_hm_apply (h : Cert.Spec.Mat 10000 64) (wc : Cert.Spec.Mat 64 64) (r : Fin 10000) (q : Fin 64) :
    Cert.Spec.hm h wc (ix2 r q) = ∑ k : Fin 64, h (ix2 r k) * wc (ix2 k q) := rfl

/-- Entry (r, h) of the hidden layer: the rectified aggregate of row r of adj against column h of x · W1, plus b1[h]. -/
theorem spec_hidden_apply (adj : Cert.Spec.Mat 10000 10000) (xw : Cert.Spec.Mat 10000 64) (b1 : Cert.Spec.Vc 64) (r : Fin 10000) (h : Fin 64) :
    Cert.Spec.hidden adj xw b1 (ix2 r h) = max (∑ k : Fin 10000, adj (ix2 r k) * xw (ix2 k h) + b1 (ix1 h)) 0 := rfl

/-- Entry (r, q) of adj · hm + [bmu | blv]. -/
theorem spec_out_apply (adj : Cert.Spec.Mat 10000 10000) (hm : Cert.Spec.Mat 10000 64) (bc : Cert.Spec.Vc 64) (r : Fin 10000) (q : Fin 64) :
    Cert.Spec.out adj hm bc (ix2 r q) = ∑ k : Fin 10000, adj (ix2 r k) * hm (ix2 k q) + bc (ix1 q) := rfl

/-- Row 400 (t - 25) + p of a block of 400 rows at a point t below 50 is a row of the array. -/
theorem emit_row_lt (t : Fin cfg0.N) (p : Fin 400) : 400 * (t.val - 25) + p.val < 10000 := by
  have hN : t.val < 50 := Nat.lt_of_lt_of_eq t.isLt N_eq
  omega

/-- x · W1 as the first point forms it is the encoder's x · W1. -/
theorem xwOf_eq (c : Dev nD) :
    xwOf (F := Ideal) m c = Cert.Spec.xw (m ((c : Thread nD τ).loc main_arg0)) (m ((c : Thread nD τ).loc main_arg2)) := by
  unfold xwOf
  rw [blk_x, blk_w1, pay1_eq]

/-- The encoder's relu(adj · (x · W1) + b1) · [Wmu | Wlv], all 10000 rows. -/
abbrev hmOf (c : Dev nD) : S10000x64.Idx → EReal :=
  Cert.Spec.hm (Cert.Spec.hidden (m ((c : Thread nD τ).loc main_arg1)) (Cert.Spec.xw (m ((c : Thread nD τ).loc main_arg0)) (m ((c : Thread nD τ).loc main_arg2))) (m ((c : Thread nD τ).loc main_arg3)))
    (Cert.Spec.wcat (m ((c : Thread nD τ).loc main_arg4)) (m ((c : Thread nD τ).loc main_arg6)))

/-- The 400 rows point t of phase 0 stores are rows [400 t, 400 t + 400) of it. -/
theorem hmBlk_apply (c : Dev nD) (t : Fin cfg0.N) (ht : t.val < 25) (p : Fin 400) (q : Fin 64) :
    hmBlk (F := Ideal) m c t (ix2 p q) = hmOf m c (ix2 (⟨400 * t.val + p.val, by omega⟩ : Fin 10000) q) := by
  unfold hmBlk
  rw [pay2_apply, xwOf_eq, blk_wcat]
  refine Eq.trans ?_ (spec_hm_apply _ _ _ _).symm
  simp only [spec_hidden_apply, blk_adj, blk_b1, Nat.mod_eq_of_lt ht]

/-- So the second scratch once phase 0 is over holds all of it. -/
theorem hmArr_eq (c : Dev nD) : hmArr (F := Ideal) m c = hmOf m c := by
  funext j
  have h0 := idx2_lt0 j
  unfold hmArr
  refine (hmBlk_apply m c _ (by show (j 0).val / 400 < 25; omega) _ _).trans (congrArg (hmOf m c) ?_)
  funext a
  apply Fin.ext
  match a with
  | ⟨0, _⟩ => show 400 * ((j 0).val / 400) + (j 0).val % 400 = (j 0).val; omega
  | ⟨1, _⟩ => rfl

/-- A point of phase 1 leaves rows [400 (t - 25), 400 (t - 25) + 400) of mu in the first output buffer … -/
theorem outMu_apply (c : Dev nD) (t : Fin cfg0.N) (ht : 25 ≤ t.val) (p : Fin 400) (q : Fin 32) :
    outMu (F := Ideal) m c t (ix2 p q)
      = muOf m c (ix2 (⟨400 * (t.val - 25) + p.val, emit_row_lt t p⟩ : Fin 10000) q) := by
  have hN : t.val < 50 := Nat.lt_of_lt_of_eq t.isLt N_eq
  have hmod : t.val % 25 = t.val - 25 := by omega
  unfold outMu
  rw [pay4_apply, pay3_apply, hmArr_eq]
  refine Eq.trans ?_ (Cert.Spec.out_left _ _ _ _ _ (m ((c : Thread nD τ).loc main_arg6)) _ (m ((c : Thread nD τ).loc main_arg7)) _ q)
  rw [spec_out_apply]
  simp only [blk_adj, blk_bcat, hmod]

/-- … and the same rows of logvar in the second. -/
theorem outLv_apply (c : Dev nD) (t : Fin cfg0.N) (ht : 25 ≤ t.val) (p : Fin 400) (q : Fin 32) :
    outLv (F := Ideal) m c t (ix2 p q)
      = lvOf m c (ix2 (⟨400 * (t.val - 25) + p.val, emit_row_lt t p⟩ : Fin 10000) q) := by
  have hN : t.val < 50 := Nat.lt_of_lt_of_eq t.isLt N_eq
  have hmod : t.val % 25 = t.val - 25 := by omega
  unfold outLv
  rw [pay5_apply, pay3_apply, hmArr_eq]
  refine Eq.trans ?_ (Cert.Spec.out_right _ _ _ _ (m ((c : Thread nD τ).loc main_arg4)) _ (m ((c : Thread nD τ).loc main_arg5)) _ _ q)
  rw [spec_out_apply]
  simp only [blk_adj, blk_bcat, hmod]

/-! ## From the blocks to the two arrays -/

/-- Where an element of point t's block of the first output sits in the array: row 400 (t - 25) + p, column q. -/
theorem emb_mu (t : Fin cfg0.N) (ht : 25 ≤ t.val) (p : Fin 400) (q : Fin 32) :
    ((cfg0.win 6).blk t).view.emb (ix2 p q)
      = ix2 (⟨400 * (t.val - 25) + p.val, emit_row_lt t p⟩ : Fin 10000) q := by
  have e0 : win0_6.index t (0 : Fin 2) = t.val - 25 := congrFun (index6 t ht) 0
  have e1 : win0_6.index t (1 : Fin 2) = 0 := congrFun (index6 t ht) 1
  funext a
  apply Fin.ext
  match a with
  | ⟨0, _⟩ => show win0_6.index t (0 : Fin 2) * 400 + 1 * p.val = 400 * (t.val - 25) + p.val; omega
  | ⟨1, _⟩ => show win0_6.index t (1 : Fin 2) * 32 + 1 * q.val = q.val; omega

/-- The same for the second output. -/
theorem emb_lv (t : Fin cfg0.N) (ht : 25 ≤ t.val) (p : Fin 400) (q : Fin 32) :
    ((cfg0.win 7).blk t).view.emb (ix2 p q)
      = ix2 (⟨400 * (t.val - 25) + p.val, emit_row_lt t p⟩ : Fin 10000) q := by
  have e0 : win0_7.index t (0 : Fin 2) = t.val - 25 := congrFun (index7 t ht) 0
  have e1 : win0_7.index t (1 : Fin 2) = 0 := congrFun (index7 t ht) 1
  funext a
  apply Fin.ext
  match a with
  | ⟨0, _⟩ => show win0_7.index t (0 : Fin 2) * 400 + 1 * p.val = 400 * (t.val - 25) + p.val; omega
  | ⟨1, _⟩ => show win0_7.index t (1 : Fin 2) * 32 + 1 * q.val = q.val; omega

/-- What a point of phase 1 writes back into the first output is its block of mu. -/
theorem flushed_mu (c : Dev nD) (t : Fin cfg0.N) (hf : (cfg0.win 6).flush t = true) :
    (dats (F := Ideal) m 0 c).flushed 6 t = ((cfg0.win 6).blk t).view.read (Elt Ideal) (muOf m c) := by
  have ht : 25 ≤ t.val := (flush6_iff t).mp hf
  show (cfg0.win 6).cut (grid0.coords t) ((dats m 0 c).after 6 t) = _
  rw [after6]
  funext j
  revert j
  show ∀ j : S400x32.Idx, outMu m c t j = muOf m c (((cfg0.win 6).blk t).view.emb j)
  intro j
  obtain ⟨p, q, rfl⟩ : ∃ (p : Fin 400) (q : Fin 32), j = ix2 p q := ⟨j 0, j 1, eq_ix2 j⟩
  rw [emb_mu t ht, outMu_apply m c t ht]

/-- What a point of phase 1 writes back into the second output is its block of logvar. -/
theorem flushed_lv (c : Dev nD) (t : Fin cfg0.N) (hf : (cfg0.win 7).flush t = true) :
    (dats (F := Ideal) m 0 c).flushed 7 t = ((cfg0.win 7).blk t).view.read (Elt Ideal) (lvOf m c) := by
  have ht : 25 ≤ t.val := (flush7_iff t).mp hf
  show (cfg0.win 7).cut (grid0.coords t) ((dats m 0 c).after 7 t) = _
  rw [after7]
  funext j
  revert j
  show ∀ j : S400x32.Idx, outLv m c t j = lvOf m c (((cfg0.win 7).blk t).view.emb j)
  intro j
  obtain ⟨p, q, rfl⟩ : ∃ (p : Fin 400) (q : Fin 32), j = ix2 p q := ⟨j 0, j 1, eq_ix2 j⟩
  rw [emb_lv t ht, outLv_apply m c t ht]

/-- An index of the first output array is in point t's block iff each coordinate is in the block's range on its axis. -/
theorem mem_blk_mu (t : Fin cfg0.N) (i : S10000x32.Idx) :
    i ∈ ((cfg0.win 6).blk t).view.set ↔ ∀ a : Fin 2, win0_6.index t a * S400x32.size a ≤ (i a).val ∧ (i a).val < win0_6.index t a * S400x32.size a + S400x32.size a := by
  show i ∈ ((View.whole main_v4_0).slice (win0_6.rect t)).set ↔ _
  rw [View.set_slice_whole, Rect.mem_set_unit]
  exact Iff.rfl

/-- The same for the second output array. -/
theorem mem_blk_lv (t : Fin cfg0.N) (i : S10000x32.Idx) :
    i ∈ ((cfg0.win 7).blk t).view.set ↔ ∀ a : Fin 2, win0_7.index t a * S400x32.size a ≤ (i a).val ∧ (i a).val < win0_7.index t a * S400x32.size a + S400x32.size a := by
  show i ∈ ((View.whole main_v4_1).slice (win0_7.rect t)).set ↔ _
  rw [View.set_slice_whole, Rect.mem_set_unit]
  exact Iff.rfl

/-- Row r of the first output lies in the block of the point r / 400 + 25 of phase 1: the 25 blocks tile the array. -/
theorem cover_mu (i : S10000x32.Idx) :
    ∃ t : Fin cfg0.N, (cfg0.win 6).flush t = true ∧ i ∈ ((cfg0.win 6).blk t).view.set := by
  have hi0 : (i 0).val < 10000 := idx2_lt0 i
  have hi1 : (i 1).val < 32 := idx2_lt1 i
  have hlt : (i 0).val / 400 + 25 < cfg0.N := by rw [N_eq]; omega
  have ht : 25 ≤ (⟨(i 0).val / 400 + 25, hlt⟩ : Fin cfg0.N).val := Nat.le_add_left _ _
  have e0 : win0_6.index ⟨(i 0).val / 400 + 25, hlt⟩ (0 : Fin 2) = (i 0).val / 400 + 25 - 25 := congrFun (index6 _ ht) 0
  have e1 : win0_6.index ⟨(i 0).val / 400 + 25, hlt⟩ (1 : Fin 2) = 0 := congrFun (index6 _ ht) 1
  refine ⟨⟨(i 0).val / 400 + 25, hlt⟩, (flush6_iff _).mpr ht, ?_⟩
  rw [mem_blk_mu]
  intro a
  match a with
  | ⟨0, _⟩ => show win0_6.index ⟨(i 0).val / 400 + 25, hlt⟩ (0 : Fin 2) * 400 ≤ (i 0).val ∧ (i 0).val < win0_6.index ⟨(i 0).val / 400 + 25, hlt⟩ (0 : Fin 2) * 400 + 400; omega
  | ⟨1, _⟩ => show win0_6.index ⟨(i 0).val / 400 + 25, hlt⟩ (1 : Fin 2) * 32 ≤ (i 1).val ∧ (i 1).val < win0_6.index ⟨(i 0).val / 400 + 25, hlt⟩ (1 : Fin 2) * 32 + 32; omega

/-- The same tiling of the second output. -/
theorem cover_lv (i : S10000x32.Idx) :
    ∃ t : Fin cfg0.N, (cfg0.win 7).flush t = true ∧ i ∈ ((cfg0.win 7).blk t).view.set := by
  have hi0 : (i 0).val < 10000 := idx2_lt0 i
  have hi1 : (i 1).val < 32 := idx2_lt1 i
  have hlt : (i 0).val / 400 + 25 < cfg0.N := by rw [N_eq]; omega
  have ht : 25 ≤ (⟨(i 0).val / 400 + 25, hlt⟩ : Fin cfg0.N).val := Nat.le_add_left _ _
  have e0 : win0_7.index ⟨(i 0).val / 400 + 25, hlt⟩ (0 : Fin 2) = (i 0).val / 400 + 25 - 25 := congrFun (index7 _ ht) 0
  have e1 : win0_7.index ⟨(i 0).val / 400 + 25, hlt⟩ (1 : Fin 2) = 0 := congrFun (index7 _ ht) 1
  refine ⟨⟨(i 0).val / 400 + 25, hlt⟩, (flush7_iff _).mpr ht, ?_⟩
  rw [mem_blk_lv]
  intro a
  match a with
  | ⟨0, _⟩ => show win0_7.index ⟨(i 0).val / 400 + 25, hlt⟩ (0 : Fin 2) * 400 ≤ (i 0).val ∧ (i 0).val < win0_7.index ⟨(i 0).val / 400 + 25, hlt⟩ (0 : Fin 2) * 400 + 400; omega
  | ⟨1, _⟩ => show win0_7.index ⟨(i 0).val / 400 + 25, hlt⟩ (1 : Fin 2) * 32 ≤ (i 1).val ∧ (i 1).val < win0_7.index ⟨(i 0).val / 400 + 25, hlt⟩ (1 : Fin 2) * 32 + 32; omega

/-- The first output array after the run is mu. -/
theorem final_mu (c : Dev nD) : (dats (F := Ideal) m 0 c).arrAt 6 cfg0.N = muOf m c := by
  exact (dats (F := Ideal) m 0 c).arrAt_eq_of_cover 6 (muOf m c) (flushed_mu m c) cover_mu

/-- The second output array after the run is logvar. -/
theorem final_lv (c : Dev nD) : (dats (F := Ideal) m 0 c).arrAt 7 cfg0.N = lvOf m c := by
  exact (dats (F := Ideal) m 0 c).arrAt_eq_of_cover 7 (lvOf m c) (flushed_lv m c) cover_lv

end Cert.KernelIdeal.Hand

end
-- ==== Proof.RefValue.lean ====
/-
  The reference's two results, as its run states them (the composition of its host operations), are the encoder's
  two results index by index: each dot_general is the sum of products over its one contracted axis, each bias is
  broadcast over the rows, and relu is max with zero.
-/
import proofs.«105579_g49082886258796_cont_8to1c4_279_12_alg».proof.Proof.Gen.ReferenceIdeal.Read
import proofs.«105579_g49082886258796_cont_8to1c4_279_12_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-- The first product, entry by entry: the contracted axis is the columns of x and the rows of W1. -/
theorem xw_at (x0 : (⟨S10000x128, .f32⟩ : BufTy).Contents (Elt Ideal)) (x2 : (⟨S128x64, .f32⟩ : BufTy).Contents (Elt Ideal))
    (r : Fin 10000) (c : Fin 64) :
    val_main_v0 (F := Ideal) x0 x2 (ix2 r c) = Cert.Spec.xw x0 x2 (ix2 r c) := by
  rw [val_main_v0_apply]
  unfold Cert.Spec.xw
  refine Finset.sum_congr rfl fun k _ => ?_
  have el : lidx_main_v0 (ix2 r c) k = ix2 r k := funext fun a => by
    match a with
    | ⟨0, _⟩ => rfl
    | ⟨1, _⟩ => rfl
  have er : ridx_main_v0 (ix2 r c) k = ix2 k c := funext fun a => by
    match a with
    | ⟨0, _⟩ => rfl
    | ⟨1, _⟩ => rfl
  rw [el, er]

/-- … hence as functions. -/
theorem xw_eq (x0 : (⟨S10000x128, .f32⟩ : BufTy).Contents (Elt Ideal)) (x2 : (⟨S128x64, .f32⟩ : BufTy).Contents (Elt Ideal)) :
    val_main_v0 (F := Ideal) x0 x2 = Cert.Spec.xw x0 x2 := by
  funext i
  obtain ⟨r, c, rfl⟩ : ∃ (r : Fin 10000) (c : Fin 64), i = ix2 r c := ⟨i 0, i 1, eq_ix2 i⟩
  exact xw_at x0 x2 r c

/-- The hidden layer, entry by entry: the aggregate of the first product over the rows of adj, plus the bias of the
    column (the bias is broadcast over the rows), then the maximum with the constant zero. -/
theorem hidden_at (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal))
    (r : Fin 10000) (c : Fin 64) :
    val_main_v5 (F := Ideal) x0 x1 x2 x3 (ix2 r c) = Cert.Spec.hidden x1 (Cert.Spec.xw x0 x2) x3 (ix2 r c) := by
  rw [val_main_v5_apply, val_main_v4_apply, val_main_v1_apply, val_main_v3_apply, val_main_v2_apply,
    val_main_call0_v0_apply, val_main_call0_cst_apply, xw_eq]
  unfold Cert.Spec.hidden
  simp only [Ideal.maximumf_def, Ideal.addf_def, Ideal.ofBits_def, Ideal.ofBits_zero_f32]
  have eb : idx_main_v2 (idx_main_v3 (ix2 r c)) = ix1 c := funext fun a => by
    match a with
    | ⟨0, _⟩ => rfl
  have es : ∀ k : Fin 10000, x1 (lidx_main_v1 (ix2 r c) k) * Cert.Spec.xw x0 x2 (ridx_main_v1 (ix2 r c) k)
      = x1 (ix2 r k) * Cert.Spec.xw x0 x2 (ix2 k c) := fun k => by
    have el : lidx_main_v1 (ix2 r c) k = ix2 r k := funext fun a => by
      match a with
      | ⟨0, _⟩ => rfl
      | ⟨1, _⟩ => rfl
    have er : ridx_main_v1 (ix2 r c) k = ix2 k c := funext fun a => by
      match a with
      | ⟨0, _⟩ => rfl
      | ⟨1, _⟩ => rfl
    rw [el, er]
  rw [eb, Finset.sum_congr rfl fun k _ => es k]

/-- … hence as functions. -/
theorem hidden_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) :
    val_main_v5 (F := Ideal) x0 x1 x2 x3 = Cert.Spec.hidden x1 (Cert.Spec.xw x0 x2) x3 := by
  funext i
  obtain ⟨r, c, rfl⟩ : ∃ (r : Fin 10000) (c : Fin 64), i = ix2 r c := ⟨i 0, i 1, eq_ix2 i⟩
  exact hidden_at x0 x1 x2 x3 r c

/-- The product of the hidden layer with the weights of the first result, entry by entry. -/
theorem proj_mu_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) :
    val_main_v6 (F := Ideal) x0 x1 x2 x3 x4 = Cert.Spec.proj (Cert.Spec.hidden x1 (Cert.Spec.xw x0 x2) x3) x4 := by
  funext i
  obtain ⟨r, q, rfl⟩ : ∃ (r : Fin 10000) (q : Fin 32), i = ix2 r q := ⟨i 0, i 1, eq_ix2 i⟩
  rw [val_main_v6_apply, hidden_eq]
  unfold Cert.Spec.proj
  refine Finset.sum_congr rfl fun k _ => ?_
  have el : lidx_main_v6 (ix2 r q) k = ix2 r k := funext fun a => by
    match a with
    | ⟨0, _⟩ => rfl
    | ⟨1, _⟩ => rfl
  have er : ridx_main_v6 (ix2 r q) k = ix2 k q := funext fun a => by
    match a with
    | ⟨0, _⟩ => rfl
    | ⟨1, _⟩ => rfl
  rw [el, er]

/-- The product of the hidden layer with the weights of the second result, entry by entry. -/
theorem proj_logvar_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x6 : (⟨S64x32, .f32⟩ : BufTy).Contents (Elt Ideal)) :
    val_main_v11 (F := Ideal) x0 x1 x2 x3 x6 = Cert.Spec.proj (Cert.Spec.hidden x1 (Cert.Spec.xw x0 x2) x3) x6 := by
  funext i
  obtain ⟨r, q, rfl⟩ : ∃ (r : Fin 10000) (q : Fin 32), i = ix2 r q := ⟨i 0, i 1, eq_ix2 i⟩
  rw [val_main_v11_apply, hidden_eq]
  unfold Cert.Spec.proj
  refine Finset.sum_congr rfl fun k _ => ?_
  have el : lidx_main_v11 (ix2 r q) k = ix2 r k := funext fun a => by
    match a with
    | ⟨0, _⟩ => rfl
    | ⟨1, _⟩ => rfl
  have er : ridx_main_v11 (ix2 r q) k = ix2 k q := funext fun a => by
    match a with
    | ⟨0, _⟩ => rfl
    | ⟨1, _⟩ => rfl
  rw [el, er]

theorem ref_mu (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) :
    val_main_v10 (F := Ideal) x0 x1 x2 x3 x4 x5 = Cert.Spec.mu x0 x1 x2 x3 x4 x5 := by
  funext i
  obtain ⟨r, q, rfl⟩ : ∃ (r : Fin 10000) (q : Fin 32), i = ix2 r q := ⟨i 0, i 1, eq_ix2 i⟩
  rw [val_main_v10_apply, val_main_v7_apply, val_main_v9_apply, val_main_v8_apply, proj_mu_eq]
  unfold Cert.Spec.mu Cert.Spec.agg
  simp only [Ideal.addf_def]
  have eb : idx_main_v8 (idx_main_v9 (ix2 r q)) = ix1 q := funext fun a => by
    match a with
    | ⟨0, _⟩ => rfl
  have es : ∀ k : Fin 10000, x1 (lidx_main_v7 (ix2 r q) k) * Cert.Spec.proj (Cert.Spec.hidden x1 (Cert.Spec.xw x0 x2) x3) x4 (ridx_main_v7 (ix2 r q) k)
      = x1 (ix2 r k) * Cert.Spec.proj (Cert.Spec.hidden x1 (Cert.Spec.xw x0 x2) x3) x4 (ix2 k q) := fun k => by
    have el : lidx_main_v7 (ix2 r q) k = ix2 r k := funext fun a => by
      match a with
      | ⟨0, _⟩ => rfl
      | ⟨1, _⟩ => rfl
    have er : ridx_main_v7 (ix2 r q) k = ix2 k q := funext fun a => by
      match a with
      | ⟨0, _⟩ => rfl
      | ⟨1, _⟩ => rfl
    rw [el, er]
  rw [eb, Finset.sum_congr rfl fun k _ => es k]

theorem ref_logvar (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x6 : (⟨S64x32, .f32⟩ : BufTy).Contents (Elt Ideal)) (x7 : (⟨S32, .f32⟩ : BufTy).Contents (Elt Ideal)) :
    val_main_v15 (F := Ideal) x0 x1 x2 x3 x6 x7 = Cert.Spec.logvar x0 x1 x2 x3 x6 x7 := by
  funext i
  obtain ⟨r, q, rfl⟩ : ∃ (r : Fin 10000) (q : Fin 32), i = ix2 r q := ⟨i 0, i 1, eq_ix2 i⟩
  rw [val_main_v15_apply, val_main_v12_apply, val_main_v14_apply, val_main_v13_apply, proj_logvar_eq]
  unfold Cert.Spec.logvar Cert.Spec.agg
  simp only [Ideal.addf_def]
  have eb : idx_main_v13 (idx_main_v14 (ix2 r q)) = ix1 q := funext fun a => by
    match a with
    | ⟨0, _⟩ => rfl
  have es : ∀ k : Fin 10000, x1 (lidx_main_v12 (ix2 r q) k) * Cert.Spec.proj (Cert.Spec.hidden x1 (Cert.Spec.xw x0 x2) x3) x6 (ridx_main_v12 (ix2 r q) k)
      = x1 (ix2 r k) * Cert.Spec.proj (Cert.Spec.hidden x1 (Cert.Spec.xw x0 x2) x3) x6 (ix2 k q) := fun k => by
    have el : lidx_main_v12 (ix2 r q) k = ix2 r k := funext fun a => by
      match a with
      | ⟨0, _⟩ => rfl
      | ⟨1, _⟩ => rfl
    have er : ridx_main_v12 (ix2 r q) k = ix2 k q := funext fun a => by
      match a with
      | ⟨0, _⟩ => rfl
      | ⟨1, _⟩ => rfl
    rw [el, er]
  rw [eb, Finset.sum_congr rfl fun k _ => es k]

end Cert.ReferenceIdeal.RefValue

end
-- ==== Proof.lean ====
/-
  The certificate of the fused graph-encoder kernel against its jnp reference, over the extended reals.
  The kernel computes, in one pallas_call over a grid of two phases by 25 row blocks,
      hm      = max (adj · (x · W1) + b1, 0) · [Wmu | Wlv]        (phase 0, kept in a scratch buffer)
      mu | lv = adj · hm + [bmu | blv]                             (phase 1, the two outputs)
  and the reference computes hidden = max (adj · (x · W1) + b1, 0), mu = adj · (hidden · Wmu) + bmu and
  logvar = adj · (hidden · Wlv) + blv. Index by index these are the same sums of the same products: a column of the
  concatenated weights is a column of Wmu or of Wlv, and an entry of the concatenated bias is an entry of bmu or blv;
  no law of arithmetic beyond that reading is used, so the precondition is never opened.
  The three frames: the kernel's frame is proved once for any float instance (the body at the first point, at the later
  points of phase 0 and at the points of phase 1, with the invariant that the first scratch holds x · W1 and the written
  blocks of the second scratch are in place) and used at the word-level and at the ideal instance; the reference's frame
  is its run with the results dropped. The value claim reads the kernel's two output arrays after the run as the
  encoder's mu and logvar, and the reference's run as the same two functions.
-/
import proofs.«105579_g49082886258796_cont_8to1c4_279_12_alg».proof.Defs
import proofs.«105579_g49082886258796_cont_8to1c4_279_12_alg».proof.Proof.Gen.Kernel
import proofs.«105579_g49082886258796_cont_8to1c4_279_12_alg».proof.Proof.Gen.KernelIdeal
import proofs.«105579_g49082886258796_cont_8to1c4_279_12_alg».proof.Proof.Gen.ReferenceIdeal
import proofs.«105579_g49082886258796_cont_8to1c4_279_12_alg».proof.Proof.Gen.Pre_finite_inputs
import proofs.«105579_g49082886258796_cont_8to1c4_279_12_alg».proof.Proof.Gen.ReferenceIdeal.Run
import proofs.«105579_g49082886258796_cont_8to1c4_279_12_alg».proof.Proof.Gen.ReferenceIdeal.Read
import proofs.«105579_g49082886258796_cont_8to1c4_279_12_alg».proof.Proof.BitsFrame
import proofs.«105579_g49082886258796_cont_8to1c4_279_12_alg».proof.Proof.IdealFrame
import proofs.«105579_g49082886258796_cont_8to1c4_279_12_alg».proof.Proof.IdealValue
import proofs.«105579_g49082886258796_cont_8to1c4_279_12_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Hand.frame (F := Bits) m ρ

/-- The idealized kernel runs and keeps its arguments. -/
theorem frame_kernelIdeal : Cert.frame_KernelIdeal := fun m ρ _ => Cert.KernelIdeal.Hand.frame (F := Ideal) m ρ

/-- The reference runs and keeps its arguments: its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories agreeing on the arguments both programs end with mu, mu and logvar of those arguments. -/
theorem algebraic : Cert.algebraic_KernelIdeal_ReferenceIdeal := by
  intro m ρ m' ρ' _ hagree
  refine ⟨fun c => Cert.KernelIdeal.Hand.muOf m c, fun c => Cert.KernelIdeal.Hand.muOf m c, fun c => Cert.KernelIdeal.Hand.lvOf m c, ?_, ?_⟩
  · refine (θ_run Cert.KernelIdeal.defs _ _).mono (fun r h c => ?_) (Cert.KernelIdeal.Hand.run_main (F := Ideal) m ρ)
    exact ⟨((h c).1 6).trans (Cert.KernelIdeal.Hand.final_mu m c), ((h c).1 6).trans (Cert.KernelIdeal.Hand.final_mu m c),
      ((h c).1 7).trans (Cert.KernelIdeal.Hand.final_lv m c), Cert.KernelIdeal.Hand.args_kept m r h c⟩
  · refine (θ_run Cert.ReferenceIdeal.defs _ _).mono (fun r h c => ?_) (Cert.ReferenceIdeal.Value.run (F := Ideal) m' ρ')
    obtain ⟨h10, -, h15, hargs⟩ := h c
    obtain ⟨e0, e1, e2, e3, e4, e5, e6, e7⟩ := hagree c
    have hmu : r.2.mem ((c.tc : Thread Cert.ReferenceIdeal.nD Cert.ReferenceIdeal.τ).loc Cert.ReferenceIdeal.main_v10) = Cert.KernelIdeal.Hand.muOf m c := by
      rw [h10, Cert.ReferenceIdeal.Read.val_main_v10_eq, Cert.ReferenceIdeal.RefValue.ref_mu, e0, e1, e2, e3, e4, e5]
    have hlv : r.2.mem ((c.tc : Thread Cert.ReferenceIdeal.nD Cert.ReferenceIdeal.τ).loc Cert.ReferenceIdeal.main_v15) = Cert.KernelIdeal.Hand.lvOf m c := by
      rw [h15, Cert.ReferenceIdeal.Read.val_main_v15_eq, Cert.ReferenceIdeal.RefValue.ref_logvar, e0, e1, e2, e3, e6, e7]
    exact ⟨hmu, hmu, hlv, hargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
